-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x11 : Shape := ⟨2, ![1000000, 11]⟩
abbrev S2x2000000 : Shape := ⟨2, ![2, 2000000]⟩
abbrev S128x19 : Shape := ⟨2, ![128, 19]⟩
abbrev S1000000 : Shape := ⟨1, ![1000000]⟩
abbrev S11x64 : Shape := ⟨2, ![11, 64]⟩
abbrev S64 : Shape := ⟨1, ![64]⟩
abbrev S64x19 : Shape := ⟨2, ![64, 19]⟩
abbrev S19 : Shape := ⟨1, ![19]⟩
abbrev S_ : Shape := ⟨0, ![]⟩

class Facts : Prop where
  bcast_S_S1000000x11 : S_.BroadcastsInDim S1000000x11 (![] : Fin 0 → Fin S1000000x11.rank)
  reducesTo_S1000000x11_S_d0_1 : S1000000x11.ReducesTo [0, 1] S_
  h_S_ : 0 < S_.numel
  bcast_S_S128x19 : S_.BroadcastsInDim S128x19 (![] : Fin 0 → Fin S128x19.rank)
  reducesTo_S128x19_S_d0_1 : S128x19.ReducesTo [0, 1] S_
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x19 : S_.BroadcastsInDim S64x19 (![] : Fin 0 → Fin S64x19.rank)
  reducesTo_S64x19_S_d0_1 : S64x19.ReducesTo [0, 1] S_
  bcast_S_S19 : S_.BroadcastsInDim S19 (![] : Fin 0 → Fin S19.rank)
  reducesTo_S19_S_d0 : S19.ReducesTo [0] S_

variable [Facts]

def fn_part1 {F : FTy → Type} [FloatOps F] (main_arg6 : FVec F S64x19 .f32) (main_arg7 : FVec F S19 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x19 .f32 := Host.absf main_arg6
  let main_cst_6 : FVec F S_ .f32 := constant S_ .f32 0x7F800000#32
  let main_v20 : FVec F S64x19 .f32 := broadcastInDim S64x19 ![] bcast_S_S64x19 main_cst_6
  let main_v21 : IVec S64x19 1 := cmpf .olt main_v19 main_v20
  let main_c_7 : IVec S_ 1 := constantI S_ 1 1#1
  let main_v22 : IVec S_ 1 := (fun x v => Host.reduce IntOp.andi x v reducesTo_S64x19_S_d0_1 h_S_) main_v21 main_c_7
  let main_v23 : IVec S_ 1 := andi main_v18 main_v22
  let main_v24 : FVec F S19 .f32 := Host.absf main_arg7
  let main_cst_8 : FVec F S_ .f32 := constant S_ .f32 0x7F800000#32
  let main_v25 : FVec F S19 .f32 := broadcastInDim S19 ![] bcast_S_S19 main_cst_8
  let main_v26 : IVec S19 1 := cmpf .olt main_v24 main_v25
  let main_c_9 : IVec S_ 1 := constantI S_ 1 1#1
  let main_v27 : IVec S_ 1 := (fun x v => Host.reduce IntOp.andi x v reducesTo_S19_S_d0 h_S_) main_v26 main_c_9
  let main_v28 : IVec S_ 1 := andi main_v23 main_v27
  main_v28

def fn {F : FTy → Type} [FloatOps F] (main_arg0 : FVec F S1000000x11 .f32) (main_arg1 : IVec S2x2000000 32) (main_arg2 : FVec F S128x19 .f32) (main_arg3 : IVec S1000000 32) (main_arg4 : FVec F S11x64 .f32) (main_arg5 : FVec F S64 .f32) (main_arg6 : FVec F S64x19 .f32) (main_arg7 : FVec F S19 .f32) : IVec S_ 1 :=
  let main_v0 : FVec F S1000000x11 .f32 := Host.absf main_arg0
  let main_cst : FVec F S_ .f32 := constant S_ .f32 0x7F800000#32
  let main_v1 : FVec F S1000000x11 .f32 := broadcastInDim S1000000x11 ![] bcast_S_S1000000x11 main_cst
  let main_v2 : IVec S1000000x11 1 := cmpf .olt main_v0 main_v1
  let main_c : IVec S_ 1 := constantI S_ 1 1#1
  let main_v3 : IVec S_ 1 := (fun x v => Host.reduce IntOp.andi x v reducesTo_S1000000x11_S_d0_1 h_S_) main_v2 main_c
  let main_v4 : FVec F S128x19 .f32 := Host.absf main_arg2
  let main_cst_0 : FVec F S_ .f32 := constant S_ .f32 0x7F800000#32
  let main_v5 : FVec F S128x19 .f32 := broadcastInDim S128x19 ![] bcast_S_S128x19 main_cst_0
  let main_v6 : IVec S128x19 1 := cmpf .olt main_v4 main_v5
  let main_c_1 : IVec S_ 1 := constantI S_ 1 1#1
  let main_v7 : IVec S_ 1 := (fun x v => Host.reduce IntOp.andi x v reducesTo_S128x19_S_d0_1 h_S_) main_v6 main_c_1
  let main_v8 : IVec S_ 1 := andi main_v3 main_v7
  let main_v9 : FVec F S11x64 .f32 := Host.absf main_arg4
  let main_cst_2 : FVec F S_ .f32 := constant S_ .f32 0x7F800000#32
  let main_v10 : FVec F S11x64 .f32 := broadcastInDim S11x64 ![] bcast_S_S11x64 main_cst_2
  let main_v11 : IVec S11x64 1 := cmpf .olt main_v9 main_v10
  let main_c_3 : IVec S_ 1 := constantI S_ 1 1#1
  let main_v12 : IVec S_ 1 := (fun x v => Host.reduce IntOp.andi x v reducesTo_S11x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S1000000x11 : Shape := ⟨2, ![1000000, 11]⟩
abbrev S2x2000000 : Shape := ⟨2, ![2, 2000000]⟩
abbrev S128x19 : Shape := ⟨2, ![128, 19]⟩
abbrev S1000000 : Shape := ⟨1, ![1000000]⟩
abbrev S11x64 : Shape := ⟨2, ![11, 64]⟩
abbrev S64 : Shape := ⟨1, ![64]⟩
abbrev S64x19 : Shape := ⟨2, ![64, 19]⟩
abbrev S19 : Shape := ⟨1, ![19]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x11 : Shape := ⟨2, ![2000000, 11]⟩
abbrev S1x64 : Shape := ⟨2, ![1, 64]⟩
abbrev S1x19 : Shape := ⟨2, ![1, 19]⟩
abbrev S1000000x1 : Shape := ⟨2, ![1000000, 1]⟩
abbrev S10000x11 : Shape := ⟨2, ![10000, 11]⟩
abbrev S10000x1 : Shape := ⟨2, ![10000, 1]⟩
abbrev S128x64 : Shape := ⟨2, ![128, 64]⟩
abbrev S128x1 : Shape := ⟨2, ![128, 1]⟩
abbrev S10000x64 : Shape := ⟨2, ![10000, 64]⟩
abbrev S10000x128 : Shape := ⟨2, ![10000, 128]⟩

abbrev nBuf : Space → Nat
  | .hbm => 68
  | .vmem => 11
  | .smem => 0
  | _ => 0

abbrev bufTy : (tb : Table) → Fin (tcTables nBuf tb) → BufTy
  | .hbm, ⟨0, _⟩ => ⟨S1000000x11, .f32⟩
  | .hbm, ⟨1, _⟩ => ⟨S2x2000000, .i32⟩
  | .hbm, ⟨2, _⟩ => ⟨S128x19, .f32⟩
  | .hbm, ⟨3, _⟩ => ⟨S1000000, .i32⟩
  | .hbm, ⟨4, _⟩ => ⟨S11x64, .f32⟩
  | .hbm, ⟨5, _⟩ => ⟨S64, .f32⟩
  | .hbm, ⟨6, _⟩ => ⟨S64x19, .f32⟩
  | .hbm, ⟨7, _⟩ => ⟨S19, .f32⟩
  | .hbm, ⟨8, _⟩ => ⟨S1x2000000, .i32⟩
  | .hbm, ⟨9, _⟩ => ⟨S2000000, .i32⟩
  | .hbm, ⟨10, _⟩ => ⟨S1x2000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S1000000, .f32⟩
  | .hbm, ⟨16, _⟩ => ⟨S2000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .i1⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000, .f32⟩
  | .hbm, ⟨47, _⟩ => ⟨S2000000, .f32⟩
  | .hbm, ⟨48, _⟩ => ⟨S_, .i32⟩
  | .hbm, ⟨49, _⟩ => ⟨S2000000, .i32⟩
  | .hbm, ⟨50, _⟩ => ⟨S2000000, .i1⟩
  | .hbm, ⟨51, _⟩ => ⟨S_, .i32⟩
  | .hbm, ⟨52, _⟩ => ⟨S2000000, .i32⟩
  | .hbm, ⟨53, _⟩ => ⟨S2000000, .i32⟩
  | .hbm, ⟨54, _⟩ => ⟨S2000000, .i32⟩
  | .hbm, ⟨55, _⟩ => ⟨S2000000x1, .i32⟩
  | .hbm, ⟨56, _⟩ => ⟨S2000000x11, .f32⟩
  | .hbm, ⟨57, _⟩ => ⟨S2000000x1, .f32⟩
  | .hbm, ⟨58, _⟩ => ⟨S2000000x11, .f32⟩
  | .hbm, ⟨59, _⟩ => ⟨S2000000x11, .f32⟩
  | .hbm, ⟨60, _⟩ => ⟨S_, .f32⟩
  | .hbm, ⟨61, _⟩ => ⟨S1000000x11, .f32⟩
  | .hbm, ⟨62, _⟩ => ⟨S2000000x1, .i32⟩
  | .hbm, ⟨63, _⟩ => ⟨S1000000x11, .f32⟩
  | .hbm, ⟨64, _⟩ => ⟨S1x64, .f32⟩
  | .hbm, ⟨65, _⟩ => ⟨S1x19, .f32⟩
  | .hbm, ⟨66, _⟩ => ⟨S1000000x1, .i32⟩
  | .hbm, ⟨67, _⟩ => ⟨S128x19, .f32⟩
  | .local _ .vmem, ⟨0, _⟩ => ⟨S10000x11, .f32⟩
  | .local _ .vmem, ⟨1, _⟩ => ⟨S10000x11, .f32⟩
  | .local _ .vmem, ⟨2, _⟩ => ⟨S10000x1, .i32⟩
  | .local _ .vmem, ⟨3, _⟩ => ⟨S10000x1, .i32⟩
  | .local _ .vmem, ⟨4, _⟩ => ⟨S11x64, .f32⟩
  | .local _ .vmem, ⟨5, _⟩ => ⟨S1x64, .f32⟩
  | .local _ .vmem, ⟨6, _⟩ => ⟨S64x19, .f32⟩
  | .local _ .vmem, ⟨7, _⟩ => ⟨S1x19, .f32⟩
  | .local _ .vmem, ⟨8, _⟩ => ⟨S128x19, .f32⟩
  | .local _ .vmem, ⟨9, _⟩ => ⟨S128x64, .f32⟩
  | .local _ .vmem, ⟨10, _⟩ => ⟨S128x1, .f32⟩
  | _, _ => ⟨S1000000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v37 : BitVec 1 := Scalar.cmpi .eq arg0 c99_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x19 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S1000000 : S_.BroadcastsInDim S1000000 (![] : Fin 0 → Fin S1000000.rank)
  bcast_S2000000_S2000000x1_0 : S2000000.BroadcastsInDim S2000000x1 (![0] : Fin 1 → Fin S2000000x1.rank)
  bcast_S2000000x1_S2000000x11_0_1 : S2000000x1.BroadcastsInDim S2000000x11 (![0, 1] : Fin 2 → Fin S2000000x11.rank)
  bcast_S_S1000000x11 : S_.BroadcastsInDim S1000000x11 (![] : Fin 0 → Fin S1000000x11.rank)
  shapeCasts_S64_S1x64 : S64.ShapeCasts S1x64
  shapeCasts_S19_S1x19 : S19.ShapeCasts S1x19
  shapeCasts_S1000000_S1000000x1 : S1000000.ShapeCasts S1000000x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x11_S10000x11_0_0 : ∀ a, (![0, 0] : Fin 2 → Nat) a + S10000x11.size a ≤ S10000x11.size a
  h_S10000x11 : 0 < S10000x11.numel
  shapeCasts_S10000x11_S10000x11 : S10000x11.ShapeCasts S10000x11
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  broadcasts_S128x1_S128x64 : S128x1.Broadcasts S128x64
  inb_S64x19_S64x19_0_0 : ∀ a, (![0, 0] : Fin 2 → Nat) a + S64x19.size a ≤ S64x19.size a
  h_S64x19 : 0 < S64x19.numel
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S128x19 : S1x19.Broadcasts S128x19
  inb_S128x19_S128x19_0_0 : ∀ a, (![0, 0] : Fin 2 → Nat) a + S128x19.size a ≤ S128x19.size a
  h_S128x19 : 0 < S128x19.numel
  scatter_S1000000_S2000000x1_S2000000_n_0_0_1_wf : ScatterDims.WF S1000000 S2000000x1 S2000000 [] [0] [0] 1
  gather_S1000000_S2000000x1_S2000000_n_0_n_n_0_1_1_wf : GatherDims.WF S1000000 S2000000x1 S2000000 [] [0] [] [0] [] 1 ![1]
  gather_S1000000x11_S2000000x1_S2000000x11_1_0_n_n_0_1_111_wf : GatherDims.WF S1000000x11 S2000000x1 S2000000x11 [1] [0] [] [0] [] 1 ![1, 11]
  scatter_S1000000x11_S2000000x1_S2000000x11_1_0_0_1_wf : ScatterDims.WF S1000000x11 S2000000x1 S2000000x11 [1] [0] [0] 1
  dot_S10000x11_S11x64_S10000x64_1_0_0_1_n_n_wf : DotDims.WF S10000x11 S11x64 S10000x64 [1] [0] [0] [1] [] []
  dot_S10000x128_S10000x64_S128x64_0_0_1_1_n_n_wf : DotDims.WF S10000x128 S10000x64 S128x64 [0] [0] [1] [1] [] []
  dot_S10000x128_S10000x1_S128x1_0_0_1_1_n_n_wf : DotDims.WF S10000x128 S10000x1 S128x1 [0] [0] [1] [1] [] []
  dot_S128x64_S64x19_S128x19_1_0_0_1_n_n_wf : DotDims.WF S128x64 S64x19 S128x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S1000000x11.size a
  hwx0_0 : ∀ i : grid0.Coords, EltTy.bits .f32 = 32 ∨ (Rect.block (s := S1000000x11) S10000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1000000x1.size a
  hwx0_1 : ∀ i : grid0.Coords, EltTy.bits .i32 = 32 ∨ (Rect.block (s := S1000000x1) S10000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x64.size a ≤ S11x64.size a
  hwx0_2 : ∀ i : grid0.Coords, EltTy.bits .f32 = 32 ∨ (Rect.block (s := S11x64) S11x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x19.size a ≤ S64x19.size a
  hwx0_4 : ∀ i : grid0.Coords, EltTy.bits .f32 = 32 ∨ (Rect.block (s := S64x19) S64x19.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x19.size a ≤ S1x19.size a
  hwx0_5 : ∀ i : grid0.Coords, EltTy.bits .f32 = 32 ∨ (Rect.block (s := S1x19) S1x19.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x19.size a ≤ S128x19.size a
  hwx0_6 : ∀ i : grid0.Coords, EltTy.bits .f32 = 32 ∨ (Rect.block (s := S128x19) S128x19.size (cc0_transform_6 i) (hinb0_6 i)).WholeWords (EltTy.packing .f32)

variable [Facts₀]

def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf
def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def gather_S1000000x11_S2000000x1_S2000000x11_1_0_n_n_0_1_111 : GatherDims S1000000x11 S2000000x1 S2000000x11 where
  offsetDims := [1]
  collapsedSliceDims := [0]
  operandBatchingDims := []
  startIndicesBatchingDims := []
  startIndexMap := [0]
  indexVectorDim := 1
  sliceSizes := ![1, 11]
  wf := gather_S1000000x11_S2000000x1_S2000000x11_1_0_n_n_0_1_111_wf
def scatter_S1000000x11_S2000000x1_S2000000x11_1_0_0_1 : ScatterDims S1000000x11 S2000000x1 S2000000x11 where
  updateWindowDims := [1]
  insertedWindowDims := [0]
  scatterDimsToOperandDims := [0]
  indexVectorDim := 1
  wf := scatter_S1000000x11_S2000000x1_S2000000x11_1_0_0_1_wf
def dot_S10000x11_S11x64_S10000x64_1_0_0_1_n_n : DotDims S10000x11 S11x64 S10000x64 where
  lhsContracting := [1]
  rhsContracting := [0]
  lhsNonContracting := [0]
  rhsNonContracting := [1]
  lhsBatch := []
  rhsBatch := []
  wf := dot_S10000x11_S11x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S10000x128_S10000x1_S128x1_0_0_1_1_n_n : DotDims S10000x128 S10000x1 S128x1 where
  lhsContracting := [0]
  rhsContracting := [0]
  lhsNonContracting := [1]
  rhsNonContracting := [1]
  lhsBatch := []
  rhsBatch := []
  wf := dot_S10000x128_S10000x1_S128x1_0_0_1_1_n_n_wf
def dot_S128x64_S64x19_S128x19_1_0_0_1_n_n : DotDims S128x64 S64x19 S128x19 where
  lhsContracting := [1]
  rhsContracting := [0]
  lhsNonContracting := [0]
  rhsNonContracting := [1]
  lhsBatch := []
  rhsBatch := []
  wf := dot_S128x64_S64x19_S128x19_1_0_0_1_n_n_wf

abbrev win0_0 : Pipeline.Window sig grid0 :=
  Pipeline.Window.ofSpec (Memref.whole main_v41) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S11x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S128x19.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1000000x11 : Shape := ⟨2, ![1000000, 11]⟩
abbrev S2x2000000 : Shape := ⟨2, ![2, 2000000]⟩
abbrev S128x19 : Shape := ⟨2, ![128, 19]⟩
abbrev S1000000 : Shape := ⟨1, ![1000000]⟩
abbrev S11x64 : Shape := ⟨2, ![11, 64]⟩
abbrev S64 : Shape := ⟨1, ![64]⟩
abbrev S64x19 : Shape := ⟨2, ![64, 19]⟩
abbrev S19 : Shape := ⟨1, ![19]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S1000000x64 : Shape := ⟨2, ![1000000, 64]⟩
abbrev S2000000x64 : Shape := ⟨2, ![2000000, 64]⟩
abbrev S1x64 : Shape := ⟨2, ![1, 64]⟩
abbrev S128x64 : Shape := ⟨2, ![128, 64]⟩
abbrev S1000000x1 : Shape := ⟨2, ![1000000, 1]⟩
abbrev S128 : Shape := ⟨1, ![128]⟩
abbrev S128x1 : Shape := ⟨2, ![128, 1]⟩
abbrev S1x19 : Shape := ⟨2, ![1, 19]⟩

abbrev nBuf : Space → Nat
  | .hbm => 91
  | .vmem => 0
  | .smem => 0
  | _ => 0

abbrev bufTy : (tb : Table) → Fin (tcTables nBuf tb) → BufTy
  | .hbm, ⟨0, _⟩ => ⟨S1000000x11, .f32⟩
  | .hbm, ⟨1, _⟩ => ⟨S2x2000000, .i32⟩
  | .hbm, ⟨2, _⟩ => ⟨S128x19, .f32⟩
  | .hbm, ⟨3, _⟩ => ⟨S1000000, .i32⟩
  | .hbm, ⟨4, _⟩ => ⟨S11x64, .f32⟩
  | .hbm, ⟨5, _⟩ => ⟨S64, .f32⟩
  | .hbm, ⟨6, _⟩ => ⟨S64x19, .f32⟩
  | .hbm, ⟨7, _⟩ => ⟨S19, .f32⟩
  | .hbm, ⟨8, _⟩ => ⟨S1x2000000, .i32⟩
  | .hbm, ⟨9, _⟩ => ⟨S2000000, .i32⟩
  | .hbm, ⟨10, _⟩ => ⟨S1x2000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S1000000, .f32⟩
  | .hbm, ⟨16, _⟩ => ⟨S2000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .i1⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000, .f32⟩
  | .hbm, ⟨47, _⟩ => ⟨S2000000, .f32⟩
  | .hbm, ⟨48, _⟩ => ⟨S1000000x64, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x64, .f32⟩
  | .hbm, ⟨58, _⟩ => ⟨S2000000x1, .f32⟩
  | .hbm, ⟨59, _⟩ => ⟨S2000000x64, .f32⟩
  | .hbm, ⟨60, _⟩ => ⟨S2000000x64, .f32⟩
  | .hbm, ⟨61, _⟩ => ⟨S_, .f32⟩
  | .hbm, ⟨62, _⟩ => ⟨S1000000x64, .f32⟩
  | .hbm, ⟨63, _⟩ => ⟨S2000000x1, .i32⟩
  | .hbm, ⟨64, _⟩ => ⟨S1000000x64, .f32⟩
  | .hbm, ⟨65, _⟩ => ⟨S1x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S1000000x64, .f32⟩
  | .hbm, ⟨70, _⟩ => ⟨S1000000x64, .f32⟩
  | .hbm, ⟨71, _⟩ => ⟨S_, .f32⟩
  | .hbm, ⟨72, _⟩ => ⟨S128x64, .f32⟩
  | .hbm, ⟨73, _⟩ => ⟨S1000000x1, .i32⟩
  | .hbm, ⟨74, _⟩ => ⟨S128x64, .f32⟩
  | .hbm, ⟨75, _⟩ => ⟨S_, .f32⟩
  | .hbm, ⟨76, _⟩ => ⟨S1000000, .f32⟩
  | .hbm, ⟨77, _⟩ => ⟨S_, .f32⟩
  | .hbm, ⟨78, _⟩ => ⟨S128, .f32⟩
  | .hbm, ⟨79, _⟩ => ⟨S1000000x1, .i32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128x1, .f32⟩
  | .hbm, ⟨85, _⟩ => ⟨S128x64, .f32⟩
  | .hbm, ⟨86, _⟩ => ⟨S128x64, .f32⟩
  | .hbm, ⟨87, _⟩ => ⟨S128x19, .f32⟩
  | .hbm, ⟨88, _⟩ => ⟨S1x19, .f32⟩
  | .hbm, ⟨89, _⟩ => ⟨S128x19, .f32⟩
  | .hbm, ⟨90, _⟩ => ⟨S128x19, .f32⟩
  | _, _ => ⟨S1000000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S1000000 : S_.BroadcastsInDim S1000000 (![] : Fin 0 → Fin S1000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S1000000x64 : S_.BroadcastsInDim S1000000x64 (![] : Fin 0 → Fin S1000000x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S128x64 : S_.BroadcastsInDim S128x64 (![] : Fin 0 → Fin S128x64.rank)
  bcast_S1000000_S1000000x1_0 : S1000000.BroadcastsInDim S1000000x1 (![0] : Fin 1 → Fin S1000000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S19_S1x19_1 : S19.BroadcastsInDim S1x19 (![1] : Fin 1 → Fin S1x19.rank)
  bcast_S1x19_S128x19_0_1 : S1x19.BroadcastsInDim S128x19 (![0, 1] : Fin 2 → Fin S128x19.rank)
  scatter_S1000000_S2000000x1_S2000000_n_0_0_1_wf : ScatterDims.WF S1000000 S2000000x1 S2000000 [] [0] [0] 1
  gather_S1000000_S2000000x1_S2000000_n_0_n_n_0_1_1_wf : GatherDims.WF S1000000 S2000000x1 S2000000 [] [0] [] [0] [] 1 ![1]
  dot_S1000000x11_S11x64_S1000000x64_1_0_0_1_n_n_wf : DotDims.WF S1000000x11 S11x64 S1000000x64 [1] [0] [0] [1] [] []
  gather_S1000000x64_S2000000x1_S2000000x64_1_0_n_n_0_1_164_wf : GatherDims.WF S1000000x64 S2000000x1 S2000000x64 [1] [0] [] [0] [] 1 ![1, 64]
  scatter_S1000000x64_S2000000x1_S2000000x64_1_0_0_1_wf : ScatterDims.WF S1000000x64 S2000000x1 S2000000x64 [1] [0] [0] 1
  scatter_S128x64_S1000000x1_S1000000x64_1_0_0_1_wf : ScatterDims.WF S128x64 S1000000x1 S1000000x64 [1] [0] [0] 1
  scatter_S128_S1000000x1_S1000000_n_0_0_1_wf : ScatterDims.WF S128 S1000000x1 S1000000 [] [0] [0] 1
  dot_S128x64_S64x19_S128x19_1_0_0_1_n_n_wf : DotDims.WF S128x64 S64x19 S128x19 [1] [0] [0] [1] [] []

variable [Facts₀]

def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf
def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def dot_S1000000x11_S11x64_S1000000x64_1_0_0_1_n_n : DotDims S1000000x11 S11x64 S1000000x64 where
  lhsContracting := [1]
  rhsContracting := [0]
  lhsNonContracting := [0]
  rhsNonContracting := [1]
  lhsBatch := []
  rhsBatch := []
  wf := dot_S1000000x11_S11x64_S1000000x64_1_0_0_1_n_n_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def scatter_S128x64_S1000000x1_S1000000x64_1_0_0_1 : ScatterDims S128x64 S1000000x1 S1000000x64 where
  updateWindowDims := [1]
  insertedWindowDims := [0]
  scatterDimsToOperandDims := [0]
  indexVectorDim := 1
  wf := scatter_S128x64_S1000000x1_S1000000x64_1_0_0_1_wf
def scatter_S128_S1000000x1_S1000000_n_0_0_1 : ScatterDims S128 S1000000x1 S1000000 where
  updateWindowDims := []
  insertedWindowDims := [0]
  scatterDimsToOperandDims := [0]
  indexVectorDim := 1
  wf := scatter_S128_S1000000x1_S1000000_n_0_0_1_wf
def dot_S128x64_S64x19_S128x19_1_0_0_1_n_n : DotDims S128x64 S64x19 S128x19 where
  lhsContracting := [1]
  rhsContracting := [0]
  lhsNonContracting := [0]
  rhsNonContracting := [1]
  lhsBatch := []
  rhsBatch := []
  wf := dot_S128x64_S64x19_S128x19_1_0_0_1_n_n_wf

class Facts : Prop extends Facts₀ where

variable [Facts]
-- ==== Proof.Spec.lean ====
/-
  The network as mathematics, over plain coordinate functions on the extended reals.

  A graph with 2,000,000 weighted edges over 1,000,000 nodes: edge `e` carries a weight `wt e`, reads the
  features of its source node `src e` and adds into the node whose number is the signed word `tgt e` (an edge
  whose target is no node number adds nowhere). Two orders of one computation:

  * aggregate the 11 input features along the edges first and apply the 11 × 64 weight matrix afterwards
    (`aggF`, then `mixF`), or
  * apply the matrix to every node first and aggregate the 64 transformed features (`aggH`).

  They agree when features, matrix and edge weights are real numbers (`mixF_eq_aggH`): the matrix product
  distributes over the edge sum, which on the extended reals needs every factor finite.

  After the bias and the rectifier (`hid`) the nodes are averaged per graph: node `n` belongs to the graph
  whose number is the signed word `seg n` (`pool`, `cnt`), the mean divides by the count floored at one, and
  a last 64 × 19 linear layer with bias gives the result (`head`).
-/
import Idealize.ShloMosaic.PureOps.Ideal
import Idealize.ShloMosaic.Lib.ValueIdx

noncomputable section

open scoped BigOperators

namespace Cert.Spec

open Idealize.ShloMosaic

/-- The 11 input features summed along the edges into node `n`, each edge's source row scaled by its weight. -/
def aggF (wt : Fin 2000000 → EReal) (src : Fin 2000000 → Fin 1000000) (tgt : Fin 2000000 → Int)
    (x : Fin 1000000 → Fin 11 → EReal) (n : Fin 1000000) (f : Fin 11) : EReal :=
  0 + ∑ e : Fin 2000000, if tgt e = (n.val : Int) then x (src e) f * wt e else 0

/-- The aggregated features of node `n` through the 11 × 64 matrix: output feature `j`. -/
def mixF (a : Fin 1000000 → Fin 11 → EReal) (Wc : Fin 11 → Fin 64 → EReal) (n : Fin 1000000) (j : Fin 64) : EReal :=
  ∑ f : Fin 11, a n f * Wc f j

/-- The other order: every source row through the matrix first, then the weighted sum along the edges. -/
def aggH (wt : Fin 2000000 → EReal) (src : Fin 2000000 → Fin 1000000) (tgt : Fin 2000000 → Int)
    (x : Fin 1000000 → Fin 11 → EReal) (Wc : Fin 11 → Fin 64 → EReal) (n : Fin 1000000) (j : Fin 64) : EReal :=
  0 + ∑ e : Fin 2000000, if tgt e = (n.val : Int) then (∑ f : Fin 11, x (src e) f * Wc f j) * wt e else 0

/-- Bias and rectifier. -/
def hid (a : Fin 1000000 → Fin 64 → EReal) (bc : Fin 64 → EReal) (n : Fin 1000000) (j : Fin 64) : EReal :=
  max (a n j + bc j) 0

/-- The hidden features summed over the nodes of graph `b`. -/
def pool (h : Fin 1000000 → Fin 64 → EReal) (seg : Fin 1000000 → Int) (b : Fin 128) (j : Fin 64) : EReal :=
  0 + ∑ n : Fin 1000000, if seg n = (b.val : Int) then h n j else 0

/-- The number of nodes of graph `b`. -/
def cnt (seg : Fin 1000000 → Int) (b : Fin 128) : EReal :=
  0 + ∑ n : Fin 1000000, if seg n = (b.val : Int) then 1 else 0

/-- The mean per graph (the count floored at one) through the last linear layer. -/
def head (S : Fin 128 → Fin 64 → EReal) (C : Fin 128 → EReal) (Wl : Fin 64 → Fin 19 → EReal) (bl : Fin 19 → EReal)
    (b : Fin 128) (k : Fin 19) : EReal :=
  (∑ j : Fin 64, Ideal.div (S b j) (max (C b) 1) * Wl j k) + bl k

/-- The whole network, transform-then-aggregate. -/
def out (wt : Fin 2000000 → EReal) (src : Fin 2000000 → Fin 1000000) (tgt : Fin 2000000 → Int) (seg : Fin 1000000 → Int)
    (x : Fin 1000000 → Fin 11 → EReal) (Wc : Fin 11 → Fin 64 → EReal) (bc : Fin 64 → EReal)
    (Wl : Fin 64 → Fin 19 → EReal) (bl : Fin 19 → EReal) : Fin 128 → Fin 19 → EReal :=
  head (pool (hid (aggH wt src tgt x Wc) bc) seg) (cnt seg) Wl bl

/-- The whole network, aggregate-then-transform. -/
def outF (wt : Fin 2000000 → EReal) (src : Fin 2000000 → Fin 1000000) (tgt : Fin 2000000 → Int) (seg : Fin 1000000 → Int)
    (x : Fin 1000000 → Fin 11 → EReal) (Wc : Fin 11 → Fin 64 → EReal) (bc : Fin 64 → EReal)
    (Wl : Fin 64 → Fin 19 → EReal) (bl : Fin 19 → EReal) : Fin 128 → Fin 19 → EReal :=
  head (pool (hid (mixF (aggF wt src tgt x) Wc) bc) seg) (cnt seg) Wl bl

end Cert.Spec

end
-- ==== Proof.Linear.lean ====
/-
  Two facts of plain algebra behind the bridge.

  (1) A matrix product distributes over a weighted sum along edges: aggregating 11 features and then applying the
  11 × 64 matrix gives what applying the matrix to every source row first and aggregating the 64 results gives,
  when features, matrix and edge weights are real numbers (on the extended reals distributivity fails at the
  infinities, so finiteness is used).
  (2) A sum over the million nodes is the sum over the hundred tiles of ten thousand consecutive nodes.
-/
import proofs.«410704_j68461778698659_3_alg».proof.Proof.Spec
import Mathlib.Data.EReal.Basic
import Mathlib.Data.EReal.Operations
import Mathlib.Algebra.BigOperators.Fin
import Mathlib.Algebra.BigOperators.Ring.Finset
import Mathlib.Algebra.BigOperators.Group.Finset.Basic
import Mathlib.Logic.Equiv.Fin.Basic
import Mathlib.Tactic.Ring

noncomputable section

open scoped BigOperators

namespace Cert.Spec

/-- Over the reals, with any finite edge set `ι` and feature set `κ`: the product with a column distributes over
the selected weighted edge sum, and the two finite sums change order. -/
theorem real_mix_agg {ι κ : Type*} [Fintype ι] [Fintype κ] (P : ι → Prop) [DecidablePred P]
    (a : ι → κ → ℝ) (w : ι → ℝ) (c : κ → ℝ) :
    ∑ f : κ, (0 + ∑ e : ι, if P e then a e f * w e else 0) * c f
      = 0 + ∑ e : ι, if P e then (∑ f : κ, a e f * c f) * w e else 0 := by
  simp only [zero_add, Finset.sum_mul]
  rw [Finset.sum_comm]
  refine Finset.sum_congr rfl fun e _ => ?_
  by_cases h : P e
  · simp only [h, if_true]
    refine Finset.sum_congr rfl fun f _ => ?_
    ring
  · simp only [h, if_false, zero_mul, Finset.sum_const_zero]

/-- The inclusion of the reals in the extended reals carries a finite sum to the sum of the inclusions. -/
theorem coe_sum {ι : Type*} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The inclusion passes through a choice between two reals. -/
theorem coe_ite (c : Prop) [Decidable c] (a b : ℝ) :
    ((if c then a else b : ℝ) : EReal) = if c then (a : EReal) else (b : EReal) := by
  split_ifs <;> rfl

/-- Aggregate-then-transform is transform-then-aggregate on real data. -/
theorem mixF_aggF_eq_aggH (wt : Fin 2000000 → EReal) (src : Fin 2000000 → Fin 1000000) (tgt : Fin 2000000 → Int)
    (x : Fin 1000000 → Fin 11 → EReal) (Wc : Fin 11 → Fin 64 → EReal)
    (hx : ∀ n f, ∃ r : ℝ, x n f = (r : EReal)) (hW : ∀ f j, ∃ r : ℝ, Wc f j = (r : EReal))
    (hwt : ∀ e, ∃ r : ℝ, wt e = (r : EReal)) :
    mixF (aggF wt src tgt x) Wc = aggH wt src tgt x Wc := by
  choose xr hxr using hx
  choose Wr hWr using hW
  choose wr hwr using hwt
  funext n j
  have key := real_mix_agg (fun e : Fin 2000000 => tgt e = (n.val : Int))
    (fun e f => xr (src e) f) wr (fun f => Wr f j)
  have key' := congrArg (fun r : ℝ => (r : EReal)) key
  simp only [coe_sum, EReal.coe_mul, EReal.coe_add, EReal.coe_zero, coe_ite] at key'
  simp only [mixF, aggF, aggH, hxr, hWr, hwr]
  exact key'

/-- So the two orders of the whole network agree on real data. -/
theorem outF_eq_out (wt : Fin 2000000 → EReal) (src : Fin 2000000 → Fin 1000000) (tgt : Fin 2000000 → Int)
    (seg : Fin 1000000 → Int) (x : Fin 1000000 → Fin 11 → EReal) (Wc : Fin 11 → Fin 64 → EReal) (bc : Fin 64 → EReal)
    (Wl : Fin 64 → Fin 19 → EReal) (bl : Fin 19 → EReal)
    (hx : ∀ n f, ∃ r : ℝ, x n f = (r : EReal)) (hW : ∀ f j, ∃ r : ℝ, Wc f j = (r : EReal))
    (hwt : ∀ e, ∃ r : ℝ, wt e = (r : EReal)) :
    outF wt src tgt seg x Wc bc Wl bl = out wt src tgt seg x Wc bc Wl bl := by
  unfold outF out
  rw [mixF_aggF_eq_aggH wt src tgt x Wc hx hW hwt]

/-- A sum over the million nodes, tile by tile: tile `s` holds nodes `10000·s … 10000·s + 9999`. -/
theorem sum_tiles {β : Type*} [AddCommMonoid β] (F : Fin 1000000 → β) :
    ∑ n : Fin 1000000, F n
      = ∑ s ∈ Finset.range 100, if h : s < 100 then ∑ r : Fin 10000, F ⟨10000 * s + r.val, by omega⟩ else 0 := by
  rw [Finset.sum_range (fun s => if h : s < 100 then ∑ r : Fin 10000, F ⟨10000 * s + r.val, by omega⟩ else 0)]
  have hdite : ∀ s : Fin 100,
      (if h : (s : ℕ) < 100 then ∑ r : Fin 10000, F ⟨10000 * (s : ℕ) + r.val, by omega⟩ else 0)
        = ∑ r : Fin 10000, F ⟨10000 * (s : ℕ) + r.val, by omega⟩ := fun s => dif_pos s.isLt
  simp only [hdite]
  rw [← Fintype.sum_prod_type' (f := fun (s : Fin 100) (r : Fin 10000) => F ⟨10000 * (s : ℕ) + r.val, by omega⟩)]
  symm
  refine Fintype.sum_equiv (finProdFinEquiv.trans (finCongr (by norm_num : 100 * 10000 = 1000000))) _ _ ?_
  rintro ⟨s, r⟩
  congr 1
  apply Fin.ext
  simp only [Equiv.trans_apply, finProdFinEquiv_apply_val, finCongr_apply, Fin.coe_cast]
  omega

end Cert.Spec

end
-- ==== Proof.Vocab.lean ====
/-
  The common vocabulary of the two programs, read off the reference's stages.

  Both programs compute, from the edge list alone and by the same host operations, a weight per edge (the symmetric
  degree normalisation: the product of the inverse square roots of the two end nodes' in-degrees, zero at a node of
  in-degree zero), the column of source-row numbers (a negative word wrapped once by the node count) and the column
  of target words. `wtOf`, `srcOf`, `tgtOf` name them once, over the reference's own stage terms; `segOf` is the
  graph number of a node. `G` is the network of `Spec.out` at these data; `GF` the same network in the
  aggregate-then-transform order of `Spec.outF`.
-/
import proofs.«410704_j68461778698659_3_alg».proof.Proof.RefRead
import proofs.«410704_j68461778698659_3_alg».proof.Proof.Spec
import proofs.«410704_j68461778698659_3_alg».proof.Proof.Linear

noncomputable section

namespace Cert.Vocab

open Idealize.ShloMosaic Idealize.ShloMosaic.ValueIdx
open Cert.ReferenceIdeal (S1000000x11 S2x2000000 S1000000 S11x64 S64 S64x19 S19 S128x19)

/-- The weight of edge `e`. -/
def wtOf (x1 : (⟨S2x2000000, .i32⟩ : BufTy).Contents (Elt Ideal)) (e : Fin 2000000) : EReal :=
  Cert.ReferenceIdeal.ReadP.val_main_v28 (F := Ideal) x1 (ix1 e)

/-- The source node of edge `e`: its (once wrapped) source word read signed and clamped into the node range. -/
def srcOf (x1 : (⟨S2x2000000, .i32⟩ : BufTy).Contents (Elt Ideal)) (e : Fin 2000000) : Fin 1000000 :=
  ⟨min (Cert.ReferenceIdeal.ReadP.val_main_v35 (F := Ideal) x1 (ix2 e (0 : Fin 1))).toInt.toNat (1000000 - 1), by omega⟩

/-- The target word of edge `e`, read signed: the edge adds into node `n` exactly when this is `n`. -/
def tgtOf (x1 : (⟨S2x2000000, .i32⟩ : BufTy).Contents (Elt Ideal)) (e : Fin 2000000) : Int :=
  (Cert.ReferenceIdeal.ReadP.val_main_v41 (F := Ideal) x1 (ix2 e (0 : Fin 1))).toInt

/-- The graph number of node `n`, read signed. -/
def segOf (x3 : (⟨S1000000, .i32⟩ : BufTy).Contents (Elt Ideal)) (n : Fin 1000000) : Int :=
  (x3 (ix1 n)).toInt

/-- The network's result array, transform-then-aggregate. -/
def G (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (x6 : (⟨S64x19, .f32⟩ : BufTy).Contents (Elt Ideal))
    (x7 : (⟨S19, .f32⟩ : BufTy).Contents (Elt Ideal)) : (⟨S128x19, .f32⟩ : BufTy).Contents (Elt Ideal) :=
  fun i => Spec.out (wtOf x1) (srcOf x1) (tgtOf x1) (segOf x3)
    (fun (p : Fin 1000000) (q : Fin 11) => x0 (ix2 p q)) (fun (p : Fin 11) (q : Fin 64) => x4 (ix2 p q))
    (fun (p : Fin 64) => x5 (ix1 p)) (fun (p : Fin 64) (q : Fin 19) => x6 (ix2 p q)) (fun (p : Fin 19) => x7 (ix1 p))
    ⟨(i 0).val, (i 0).isLt⟩ ⟨(i 1).val, (i 1).isLt⟩

/-- The network's result array, aggregate-then-transform. -/
def GF (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (x6 : (⟨S64x19, .f32⟩ : BufTy).Contents (Elt Ideal))
    (x7 : (⟨S19, .f32⟩ : BufTy).Contents (Elt Ideal)) : (⟨S128x19, .f32⟩ : BufTy).Contents (Elt Ideal) :=
  fun i => Spec.outF (wtOf x1) (srcOf x1) (tgtOf x1) (segOf x3)
    (fun (p : Fin 1000000) (q : Fin 11) => x0 (ix2 p q)) (fun (p : Fin 11) (q : Fin 64) => x4 (ix2 p q))
    (fun (p : Fin 64) => x5 (ix1 p)) (fun (p : Fin 64) (q : Fin 19) => x6 (ix2 p q)) (fun (p : Fin 19) => x7 (ix1 p))
    ⟨(i 0).val, (i 0).isLt⟩ ⟨(i 1).val, (i 1).isLt⟩

/-- On real features, a real matrix and real edge weights the two orders give one array. -/
theorem GF_eq_G (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (x6 : (⟨S64x19, .f32⟩ : BufTy).Contents (Elt Ideal))
    (x7 : (⟨S19, .f32⟩ : BufTy).Contents (Elt Ideal))
    (hx : ∀ i, ∃ r : ℝ, x0 i = (r : EReal)) (hW : ∀ i, ∃ r : ℝ, x4 i = (r : EReal))
    (hwt : ∀ e, ∃ r : ℝ, wtOf x1 e = (r : EReal)) :
    GF x0 x1 x3 x4 x5 x6 x7 = G x0 x1 x3 x4 x5 x6 x7 := by
  funext i
  unfold GF G
  rw [Spec.outF_eq_out _ _ _ _ _ _ _ _ _ (fun n f => hx _) (fun f j => hW _) hwt]

end Cert.Vocab

end
-- ==== Proof.LibScatterRows.lean ====
/-
  Row scatters and row gathers read at an index, on the extended reals.

  `x.at[idx].add(u)` over the rows of a rank-2 array (and over the entries of a rank-1 array), with one
  start index per update row kept as an [M, 1] column: the entry at row `n` is the operand's entry plus the sum of
  the update rows whose start index, read as a signed integer, is exactly `n`; a start index that is no row number
  adds nowhere. `x[idx]` over rows: result row `e` is the operand's row at the start index read signed and
  clamped into the array.
-/
import Idealize.ShloMosaic.PureOps.Ideal
import Idealize.ShloMosaic.Lib.ValueIdx

noncomputable section

open scoped BigOperators

namespace Cert.LibScatterRows

open Idealize.ShloMosaic Idealize.ShloMosaic.ValueIdx

variable {φ : FTy}

/-- An entry of a one-element list is that element. -/
theorem getElem_of_eq_singleton {α : Type} {l : List α} {a : α} (h : l = [a]) (i : Nat) (hi : i < l.length) :
    l[i] = a := by
  subst h
  have : i = 0 := by simpa using hi
  subst this; rfl

/-! ## Rows of a rank-2 operand: the start index, the window coordinate and the landing index of an update entry -/

section Rows
variable {N M K w : Nat} (d : ScatterDims ⟨2, ![N, K]⟩ ⟨2, ![M, 1]⟩ ⟨2, ![M, K]⟩)

/-- Update entry `(e, k')` reads its start index at entry `(e, 0)` of the column of row numbers. -/
theorem rows_siIdx (huw : d.updateWindowDims = [1]) (hivd : d.indexVectorDim = 1)
    (e : Fin M) (k' : Fin K) (c : Fin d.scatterDimsToOperandDims.length) (hc : c.val = 0) :
    d.siIdx (ix2 e k') c = ix2 e (0 : Fin 1) := by
  have hus : d.uScatter = [0] := by
    show Shape.kept _ d.updateWindowDims = _
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton hus]
    rfl
  | ⟨1, _⟩ =>
    unfold ScatterDims.siIdx
    rw [dif_pos (by rw [hivd])]
    apply Fin.ext
    exact hc

/-- On the row axis the window of update entry `(e, k')` starts at the signed value of start index `e`. -/
theorem rows_start0 (huw : d.updateWindowDims = [1]) (hsd : d.scatterDimsToOperandDims = [0])
    (hivd : d.indexVectorDim = 1) (idx : IVec ⟨2, ![M, 1]⟩ w) (e : Fin M) (k' : Fin K) :
    d.start (ix2 e k') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hivd]
  show List.idxOf (0 : Fin 2) d.scatterDimsToOperandDims = 0
  rw [hsd]; simp

/-- On the column axis every window starts at `0`. -/
theorem rows_start1 (hsd : d.scatterDimsToOperandDims = [0])
    (idx : IVec ⟨2, ![M, 1]⟩ w) (j : (⟨2, ![M, K]⟩ : Shape).Idx) :
    d.start j idx 1 = 0 := by
  have hm : (1 : Fin 2) ∉ d.scatterDimsToOperandDims := by rw [hsd]; simp
  unfold ScatterDims.start
  rw [dif_neg hm]

/-- The row axis is inserted: the window coordinate there is `0`. -/
theorem rows_window0 (hiw : d.insertedWindowDims = [0]) (j : (⟨2, ![M, K]⟩ : Shape).Idx) :
    d.window j 0 = 0 := by
  have hsk : d.sKept = [1] := by
    show Shape.kept _ d.insertedWindowDims = _
    rw [hiw]; rfl
  have hk : (0 : Fin 2) ∉ d.sKept := by rw [hsk]; simp
  unfold ScatterDims.window
  rw [dif_neg hk]

/-- On the column axis the window coordinate of update entry `(e, k')` is `k'`. -/
theorem rows_window1 (huw : d.updateWindowDims = [1]) (hiw : d.insertedWindowDims = [0])
    (e : Fin M) (k' : Fin K) :
    d.window (ix2 e k') 1 = k'.val := by
  have hsk : d.sKept = [1] := by
    show Shape.kept _ d.insertedWindowDims = _
    rw [hiw]; rfl
  have hk : (1 : Fin 2) ∈ d.sKept := by rw [hsk]; exact List.mem_singleton.mpr rfl
  unfold ScatterDims.window
  rw [dif_pos hk, getElem_of_eq_singleton huw]
  rfl

/-- Update entry `(e, k')` lands at operand entry `(n, k)` exactly when start index `e`, read signed, is `n` and
    `k' = k`. -/
theorem rows_resultIdx?_iff (huw : d.updateWindowDims = [1]) (hiw : d.insertedWindowDims = [0])
    (hsd : d.scatterDimsToOperandDims = [0]) (hivd : d.indexVectorDim = 1)
    (idx : IVec ⟨2, ![M, 1]⟩ w) (e : Fin M) (k' : Fin K) (n : Fin N) (k : Fin K) :
    d.resultIdx? (ix2 e k') idx = some (ix2 n k)
      ↔ (idx (ix2 e (0 : Fin 1))).toInt = (n.val : Int) ∧ k' = k := by
  have h0 := rows_start0 d huw hsd hivd idx e k'
  have h1 := rows_start1 d hsd idx (ix2 e k')
  have w0 := rows_window0 d hiw (ix2 e k')
  have w1 := rows_window1 d huw hiw e k'
  have hn := n.isLt
  have hk := k.isLt
  have hk' := k'.isLt
  unfold ScatterDims.resultIdx?
  split
  · next h =>
    rw [Option.some.injEq]
    constructor
    · intro hf
      have f0 : (d.start (ix2 e k') idx 0 + (d.window (ix2 e k') 0 : Int)).toNat = n.val :=
        congrArg (fun f => (f 0).val) hf
      have f1 : (d.start (ix2 e k') idx 1 + (d.window (ix2 e k') 1 : Int)).toNat = k.val :=
        congrArg (fun f => (f 1).val) hf
      have g0 : 0 ≤ d.start (ix2 e k') idx 0 + (d.window (ix2 e k') 0 : Int) := (h 0).1
      rw [h0, w0] at f0 g0
      rw [h1, w1] at f1
      exact ⟨by omega, Fin.ext (by omega)⟩
    · rintro ⟨ht, rfl⟩
      funext a
      apply Fin.ext
      match a with
      | ⟨0, _⟩ =>
        show (d.start (ix2 e k') idx 0 + (d.window (ix2 e k') 0 : Int)).toNat = n.val
        rw [h0, w0]; omega
      | ⟨1, _⟩ =>
        show (d.start (ix2 e k') idx 1 + (d.window (ix2 e k') 1 : Int)).toNat = k'.val
        rw [h1, w1]; omega
  · next h =>
    constructor
    · intro hf; exact absurd hf (by simp)
    · rintro ⟨ht, rfl⟩
      exfalso; apply h
      intro a
      match a with
      | ⟨0, _⟩ =>
        show 0 ≤ d.start (ix2 e k') idx 0 + (d.window (ix2 e k') 0 : Int)
          ∧ d.start (ix2 e k') idx 0 + (d.window (ix2 e k') 0 : Int) < (N : Int)
        rw [h0, w0]; omega
      | ⟨1, _⟩ =>
        show 0 ≤ d.start (ix2 e k') idx 1 + (d.window (ix2 e k') 1 : Int)
          ∧ d.start (ix2 e k') idx 1 + (d.window (ix2 e k') 1 : Int) < (K : Int)
        rw [h1, w1]; omega

end Rows

/-- A float scatter-add of update rows `[M, K]` into an operand `[N, K]` at an `[M, 1]` column of row numbers
    (update window axis 1, inserted window axis 0, the one start-index component naming operand axis 0), read at
    entry `(n, k)`. -/
theorem scatterAdd_rows_apply {N M K w : Nat}
    (d : ScatterDims ⟨2, ![N, K]⟩ ⟨2, ![M, 1]⟩ ⟨2, ![M, K]⟩)
    (huw : d.updateWindowDims = [1]) (hiw : d.insertedWindowDims = [0])
    (hsd : d.scatterDimsToOperandDims = [0]) (hivd : d.indexVectorDim = 1)
    (x : FVec Ideal ⟨2, ![N, K]⟩ φ) (idx : IVec ⟨2, ![M, 1]⟩ w) (upd : FVec Ideal ⟨2, ![M, K]⟩ φ)
    (n : Fin N) (k : Fin K) :
    Host.scatterAdd d x idx upd (ix2 n k)
      = x (ix2 n k) + ∑ e : Fin M, if (idx (ix2 e (0 : Fin 1))).toInt = (n.val : Int) then upd (ix2 e k) else 0 := by
  show Ideal.hostScatterAdd d x idx upd (ix2 n k) = _
  unfold Ideal.hostScatterAdd
  congr 1
  rw [Finset.sum_filter, sum_idx2]
  refine Finset.sum_congr rfl fun e _ => ?_
  simp only [rows_resultIdx?_iff d huw hiw hsd hivd idx]
  by_cases ht : (idx (ix2 e (0 : Fin 1))).toInt = (n.val : Int)
  · simp [ht]
  · simp [ht]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Entries of a rank-1 operand -/

section Vec
variable {N M w : Nat} (d : ScatterDims ⟨1, ![N]⟩ ⟨2, ![M, 1]⟩ ⟨1, ![M]⟩)

/-- Update entry `e` reads its start index at entry `(e, 0)` of the column of entry numbers. -/
theorem vec_siIdx (huw : d.updateWindowDims = []) (hivd : d.indexVectorDim = 1)
    (e : Fin M) (c : Fin d.scatterDimsToOperandDims.length) (hc : c.val = 0) :
    d.siIdx (ix1 e) c = ix2 e (0 : Fin 1) := by
  have hus : d.uScatter = [0] := by
    show Shape.kept _ d.updateWindowDims = _
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton hus]
    rfl
  | ⟨1, _⟩ =>
    unfold ScatterDims.siIdx
    rw [dif_pos (by rw [hivd])]
    apply Fin.ext
    exact hc

/-- The window of update entry `e` starts at the signed value of start index `e`. -/
theorem vec_start (huw : d.updateWindowDims = []) (hsd : d.scatterDimsToOperandDims = [0])
    (hivd : d.indexVectorDim = 1) (idx : IVec ⟨2, ![M, 1]⟩ w) (e : Fin M) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d huw hivd]
  show List.idxOf (0 : Fin 1) d.scatterDimsToOperandDims = 0
  rw [hsd]; simp

/-- The operand's one axis is inserted: the window coordinate there is `0`. -/
theorem vec_window (hiw : d.insertedWindowDims = [0]) (j : (⟨1, ![M]⟩ : Shape).Idx) :
    d.window j 0 = 0 := by
  have hsk : d.sKept = [] := by
    show Shape.kept _ d.insertedWindowDims = _
    rw [hiw]; rfl
  have hk : (0 : Fin 1) ∉ d.sKept := by rw [hsk]; exact List.not_mem_nil
  unfold ScatterDims.window
  rw [dif_neg hk]

/-- Update entry `e` lands at operand entry `n` exactly when start index `e`, read signed, is `n`. -/
theorem vec_resultIdx?_iff (huw : d.updateWindowDims = []) (hiw : d.insertedWindowDims = [0])
    (hsd : d.scatterDimsToOperandDims = [0]) (hivd : d.indexVectorDim = 1)
    (idx : IVec ⟨2, ![M, 1]⟩ w) (e : Fin M) (n : Fin N) :
    d.resultIdx? (ix1 e) idx = some (ix1 n) ↔ (idx (ix2 e (0 : Fin 1))).toInt = (n.val : Int) := by
  have h0 := vec_start d huw hsd hivd idx e
  have w0 := vec_window d hiw (ix1 e)
  have hn := n.isLt
  unfold ScatterDims.resultIdx?
  split
  · next h =>
    rw [Option.some.injEq]
    constructor
    · intro hf
      have f0 : (d.start (ix1 e) idx 0 + (d.window (ix1 e) 0 : Int)).toNat = n.val :=
        congrArg (fun f => (f 0).val) hf
      have g0 : 0 ≤ d.start (ix1 e) idx 0 + (d.window (ix1 e) 0 : Int) := (h 0).1
      rw [h0, w0] at f0 g0
      omega
    · intro ht
      funext a
      apply Fin.ext
      match a with
      | ⟨0, _⟩ =>
        show (d.start (ix1 e) idx 0 + (d.window (ix1 e) 0 : Int)).toNat = n.val
        rw [h0, w0]; omega
  · next h =>
    constructor
    · intro hf; exact absurd hf (by simp)
    · intro ht
      exfalso; apply h
      intro a
      match a with
      | ⟨0, _⟩ =>
        show 0 ≤ d.start (ix1 e) idx 0 + (d.window (ix1 e) 0 : Int)
          ∧ d.start (ix1 e) idx 0 + (d.window (ix1 e) 0 : Int) < (N : Int)
        rw [h0, w0]; omega

end Vec

/-- The same for a rank-1 operand `[N]` and rank-1 updates `[M]` (no window axis). -/
theorem scatterAdd_vec_apply {N M w : Nat}
    (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e : Fin M, if (idx (ix2 e (0 : Fin 1))).toInt = (n.val : Int) then upd (ix1 e) else 0 := by
  show Ideal.hostScatterAdd d x idx upd (ix1 n) = _
  unfold Ideal.hostScatterAdd
  congr 1
  rw [Finset.sum_filter, sum_idx1]
  refine Finset.sum_congr rfl fun e _ => ?_
  simp only [vec_resultIdx?_iff d huw hiw hsd hivd idx]

/-! ## The row gather -/

/-- A gather of whole rows of an `[N, K]` operand at an `[M, 1]` column of row numbers (offset axis 1, collapsed
    axis 0, the one start-index component naming operand axis 0, slices `1 × K`), read at entry `(e, k)`: the
    operand's entry `k` of the row at the start index read signed and clamped into `[0, N − 1]`. -/
theorem gather_rows_apply {α : Type} {N M K w : Nat}
    (d : GatherDims ⟨2, ![N, K]⟩ ⟨2, ![M, 1]⟩ ⟨2, ![M, K]⟩)
    (hoff : d.offsetDims = [1]) (hcoll : d.collapsedSliceDims = [0]) (hob : d.operandBatchingDims = [])
    (hsim : d.startIndexMap = [0]) (hivd : d.indexVectorDim = 1) (hss : d.sliceSizes = ![1, K])
    (x : (⟨2, ![N, K]⟩ : Shape).Idx → α) (idx : IVec ⟨2, ![M, 1]⟩ w) (e : Fin M) (k : Fin K) (hN : 0 < N) :
    Host.gather d x idx (ix2 e k)
      = x (ix2 ⟨min (idx (ix2 e (0 : Fin 1))).toInt.toNat (N - 1), by omega⟩ k) := by
  unfold Host.gather
  congr 1
  funext a
  apply Fin.ext
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  match a with
  | ⟨0, _⟩ =>
    -- axis 0 is collapsed and carries the start index: clamped start, no batching or offset coordinate
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show d.start (ix2 e k) idx 0 + d.batchCoord (ix2 e k) 0 + d.offCoord (ix2 e k) 0 = _
    rw [GatherDims.batchCoord_eq_zero _ _ _ hb, GatherDims.offCoord_eq_zero _ _ _ hk]
    simp only [Nat.add_zero]
    unfold GatherDims.start
    rw [dif_pos hm, hsl]
    show min (idx _).toInt.toNat (N - 1) = min (idx (ix2 e (0 : Fin 1))).toInt.toNat (N - 1)
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1 is the offset axis: start 0, no batching coordinate, the result's coordinate 1
    have hb : (1 : Fin 2) ∉ d.operandBatchingDims := by rw [hob]; exact List.not_mem_nil
    have hk : (1 : Fin 2) ∈ d.sKept := by rw [hsk]; exact List.mem_singleton.mpr rfl
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ hb]
    unfold GatherDims.start GatherDims.offCoord
    rw [dif_neg hm, dif_pos hk, getElem_of_eq_singleton hoff]
    simp only [Nat.add_zero, Nat.zero_add]
    rfl

end Cert.LibScatterRows

end
-- ==== Proof.RefValue.lean ====
/-
  The reference program's result, stage by stage, is the network `Vocab.G`.
-/
import proofs.«410704_j68461778698659_3_alg».proof.Proof.Vocab
import proofs.«410704_j68461778698659_3_alg».proof.Proof.LibScatterRows
import Idealize.ShloMosaic.Lib.IdealHost

noncomputable section

namespace Cert.RefValue

open Idealize.ShloMosaic Idealize.ShloMosaic.ValueIdx
open Cert.ReferenceIdeal (S1000000x11 S2x2000000 S1000000 S11x64 S64 S64x19 S19 S128x19)

open scoped BigOperators
open Cert.ReferenceIdeal.ReadP Cert.Vocab Cert.LibScatterRows

/-- The dense layer's product read at coordinates. -/
theorem lin_eq (x0 : (⟨S1000000x11, .f32⟩ : BufTy).Contents (Elt Ideal)) (x4 : (⟨S11x64, .f32⟩ : BufTy).Contents (Elt Ideal))
    (p : Fin 1000000) (j : Fin 64) :
    val_main_v29 (F := Ideal) x0 x4 (ix2 p j) = ∑ f : Fin 11, x0 (ix2 p f) * x4 (ix2 f j) := by
  rw [val_main_v29_apply]
  refine Finset.sum_congr rfl fun f _ => ?_
  have el : lidx_main_v29 (ix2 p j) f = ix2 p f := funext fun a => Fin.ext (by
    match a with
    | ⟨0, _⟩ => rfl
    | ⟨1, _⟩ => rfl)
  have er : ridx_main_v29 (ix2 p j) f = ix2 f j := funext fun a => Fin.ext (by
    match a with
    | ⟨0, _⟩ => rfl
    | ⟨1, _⟩ => rfl)
  rw [el, er]

/-- One edge's update row: the source row through the matrix, scaled by the weight. -/
theorem upd_eq (x0 : (⟨S1000000x11, .f32⟩ : BufTy).Contents (Elt Ideal)) (x1 : (⟨S2x2000000, .i32⟩ : BufTy).Contents (Elt Ideal))
    (x4 : (⟨S11x64, .f32⟩ : BufTy).Contents (Elt Ideal)) (e : Fin 2000000) (j : Fin 64) :
    val_main_v39 (F := Ideal) x0 x1 x4 (ix2 e j)
      = (∑ f : Fin 11, x0 (ix2 (srcOf x1 e) f) * x4 (ix2 f j)) * wtOf x1 e := by
  rw [val_main_v39_apply]
  show val_main_v36 (F := Ideal) x0 x1 x4 (ix2 e j) * val_main_v38 (F := Ideal) x1 (ix2 e j) = _
  have hw : val_main_v38 (F := Ideal) x1 (ix2 e j) = wtOf x1 e := by
    rw [val_main_v38_apply, val_main_v37_apply]
    rfl
  have hg : val_main_v36 (F := Ideal) x0 x1 x4 (ix2 e j) = ∑ f : Fin 11, x0 (ix2 (srcOf x1 e) f) * x4 (ix2 f j) := by
    unfold val_main_v36
    rw [gather_rows_apply _ rfl rfl rfl rfl rfl rfl _ _ e j (by norm_num)]
    exact lin_eq x0 x4 _ j
  rw [hw, hg]

/-- The zero operand of the edge scatter. -/
theorem zero40 (i : Cert.ReferenceIdeal.S1000000x64.Idx) : val_main_v40 (F := Ideal) i = 0 := by
  rw [val_main_v40_apply, val_main_cst_9_apply]; exact Ideal.ofBits_zero_f32

/-- The edge aggregation. -/
theorem agg_eq (x0 : (⟨S1000000x11, .f32⟩ : BufTy).Contents (Elt Ideal)) (x1 : (⟨S2x2000000, .i32⟩ : BufTy).Contents (Elt Ideal))
    (x4 : (⟨S11x64, .f32⟩ : BufTy).Contents (Elt Ideal)) (n : Fin 1000000) (j : Fin 64) :
    val_main_v42 (F := Ideal) x0 x1 x4 (ix2 n j)
      = Spec.aggH (wtOf x1) (srcOf x1) (tgtOf x1) (fun (p : Fin 1000000) (q : Fin 11) => x0 (ix2 p q))
          (fun (p : Fin 11) (q : Fin 64) => x4 (ix2 p q)) n j := by
  unfold val_main_v42 Spec.aggH
  rw [scatterAdd_rows_apply _ rfl rfl rfl rfl, zero40]
  refine congrArg (fun t : EReal => 0 + t) (Finset.sum_congr rfl fun e _ => ?_)
  rw [upd_eq]
  rfl

/-- The word of zero and the word of one, as extended reals. -/
theorem zeroBits : (FloatOps.ofBits (F := Ideal) .f32 0x00000000#32 : EReal) = 0 := Ideal.ofBits_zero_f32
theorem oneBits : (FloatOps.ofBits (F := Ideal) .f32 0x3F800000#32 : EReal) = 1 := Ideal.ofBits_one_f32

/-- Bias and rectifier. -/
theorem hid_eq (x0 : (⟨S1000000x11, .f32⟩ : BufTy).Contents (Elt Ideal)) (x1 : (⟨S2x2000000, .i32⟩ : BufTy).Contents (Elt Ideal))
    (x4 : (⟨S11x64, .f32⟩ : BufTy).Contents (Elt Ideal)) (x5 : (⟨S64, .f32⟩ : BufTy).Contents (Elt Ideal))
    (n : Fin 1000000) (j : Fin 64) :
    val_main_v46 (F := Ideal) x0 x1 x4 x5 (ix2 n j)
      = Spec.hid (Spec.aggH (wtOf x1) (srcOf x1) (tgtOf x1) (fun (p : Fin 1000000) (q : Fin 11) => x0 (ix2 p q))
          (fun (p : Fin 11) (q : Fin 64) => x4 (ix2 p q))) (fun (p : Fin 64) => x5 (ix1 p)) n j := by
  rw [val_main_v46_apply, val_main_v45_apply]
  show max (val_main_v42 (F := Ideal) x0 x1 x4 (ix2 n j) + val_main_v44 (F := Ideal) x5 (ix2 n j))
    (val_main_call1_v0 (F := Ideal) (ix2 n j)) = _
  rw [agg_eq, val_main_v44_apply, val_main_v43_apply, val_main_call1_v0_apply, val_main_call1_cst_apply, zeroBits]
  have e5 : idx_main_v43 (idx_main_v44 (ix2 n j)) = ix1 j := funext fun a => Fin.ext (by
    match a with
    | ⟨0, _⟩ => rfl)
  rw [e5]
  rfl

/-- The zero operands of the pooling and counting scatters, and the counting scatter's updates. -/
theorem zero47 (i : Cert.ReferenceIdeal.S128x64.Idx) : val_main_v47 (F := Ideal) i = 0 := by
  rw [val_main_v47_apply, val_main_cst_10_apply]; exact Ideal.ofBits_zero_f32
theorem zero51 (i : Cert.ReferenceIdeal.S128.Idx) : val_main_v51 (F := Ideal) i = 0 := by
  rw [val_main_v51_apply, val_main_cst_12_apply]; exact Ideal.ofBits_zero_f32
theorem one50 (i : S1000000.Idx) : val_main_v50 (F := Ideal) i = 1 := by
  rw [val_main_v50_apply, val_main_cst_11_apply]; exact Ideal.ofBits_one_f32

/-- The sum per graph. -/
theorem pool_eq (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (b : Fin 128) (j : Fin 64) :
    val_main_v49 (F := Ideal) x0 x1 x3 x4 x5 (ix2 b j)
      = Spec.pool (Spec.hid (Spec.aggH (wtOf x1) (srcOf x1) (tgtOf x1) (fun (p : Fin 1000000) (q : Fin 11) => x0 (ix2 p q))
          (fun (p : Fin 11) (q : Fin 64) => x4 (ix2 p q))) (fun (p : Fin 64) => x5 (ix1 p))) (segOf x3) b j := by
  unfold val_main_v49 Spec.pool
  rw [scatterAdd_rows_apply _ rfl rfl rfl rfl, zero47]
  refine congrArg (fun t : EReal => 0 + t) (Finset.sum_congr rfl fun n _ => ?_)
  rw [hid_eq, val_main_v48_apply]
  have e : idx_main_v48 (ix2 n (0 : Fin 1)) = ix1 n := funext fun a => Fin.ext (by
    match a with
    | ⟨0, _⟩ => rfl)
  rw [e]
  rfl

/-- The count per graph. -/
theorem cnt_eq (x3 : (⟨S1000000, .i32⟩ : BufTy).Contents (Elt Ideal)) (b : Fin 128) :
    val_main_v53 (F := Ideal) x3 (ix1 b) = Spec.cnt (segOf x3) b := by
  unfold val_main_v53 Spec.cnt
  rw [scatterAdd_vec_apply _ rfl rfl rfl rfl, zero51]
  refine congrArg (fun t : EReal => 0 + t) (Finset.sum_congr rfl fun n _ => ?_)
  rw [one50, val_main_v52_apply]
  have e : idx_main_v52 (ix2 n (0 : Fin 1)) = ix1 n := funext fun a => Fin.ext (by
    match a with
    | ⟨0, _⟩ => rfl)
  rw [e]
  rfl

/-- The whole reference at coordinates. -/
theorem out_eq (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (x6 : (⟨S64x19, .f32⟩ : BufTy).Contents (Elt Ideal))
    (x7 : (⟨S19, .f32⟩ : BufTy).Contents (Elt Ideal)) (b : Fin 128) (k : Fin 19) :
    val_main_v62 (F := Ideal) x0 x1 x3 x4 x5 x6 x7 (ix2 b k)
      = Spec.out (wtOf x1) (srcOf x1) (tgtOf x1) (segOf x3)
          (fun (p : Fin 1000000) (q : Fin 11) => x0 (ix2 p q)) (fun (p : Fin 11) (q : Fin 64) => x4 (ix2 p q))
          (fun (p : Fin 64) => x5 (ix1 p)) (fun (p : Fin 64) (q : Fin 19) => x6 (ix2 p q)) (fun (p : Fin 19) => x7 (ix1 p)) b k := by
  have hb : val_main_v61 (F := Ideal) x7 (ix2 b k) = x7 (ix1 k) := by
    rw [val_main_v61_apply, val_main_v60_apply]
    exact congrArg x7 (funext fun a => Fin.ext (by
      match a with
      | ⟨0, _⟩ => rfl))
  have hc : ∀ j : Fin 64, val_main_v57 (F := Ideal) x3 (ix2 b j) = max (Spec.cnt (segOf x3) b) 1 := by
    intro j
    rw [val_main_v57_apply, val_main_v56_apply, val_main_v55_apply]
    have e57 : idx_main_v56 (idx_main_v57 (ix2 b j)) = ix1 b := funext fun a => Fin.ext (by
      match a with
      | ⟨0, _⟩ => rfl)
    rw [e57]
    show max (val_main_v53 (F := Ideal) x3 (ix1 b)) (val_main_v54 (F := Ideal) (ix1 b)) = _
    rw [cnt_eq, val_main_v54_apply, val_main_cst_13_apply, oneBits]
  rw [val_main_v62_apply, val_main_v59_apply, hb]
  unfold Spec.out Spec.head
  refine congrArg (fun t : EReal => t + x7 (ix1 k)) (Finset.sum_congr rfl fun j _ => ?_)
  have el : lidx_main_v59 (ix2 b k) j = ix2 b j := funext fun a => Fin.ext (by
    match a with
    | ⟨0, _⟩ => rfl
    | ⟨1, _⟩ => rfl)
  have er : ridx_main_v59 (ix2 b k) j = ix2 j k := funext fun a => Fin.ext (by
    match a with
    | ⟨0, _⟩ => rfl
    | ⟨1, _⟩ => rfl)
  rw [el, er, val_main_v58_apply]
  show Ideal.div (val_main_v49 (F := Ideal) x0 x1 x3 x4 x5 (ix2 b j)) (val_main_v57 (F := Ideal) x3 (ix2 b j)) * _ = _
  rw [pool_eq, hc]

/-- The reference's last stage is the network at the common vocabulary's data. -/
theorem ref_eq (x0 : (⟨S1000000x11, .f32⟩ : BufTy).Contents (Elt Ideal)) (x1 : (⟨S2x2000000, .i32⟩ : BufTy).Contents (Elt Ideal))
    (x3 : (⟨S1000000, .i32⟩ : BufTy).Contents (Elt Ideal)) (x4 : (⟨S11x64, .f32⟩ : BufTy).Contents (Elt Ideal))
    (x5 : (⟨S64, .f32⟩ : BufTy).Contents (Elt Ideal)) (x6 : (⟨S64x19, .f32⟩ : BufTy).Contents (Elt Ideal))
    (x7 : (⟨S19, .f32⟩ : BufTy).Contents (Elt Ideal)) :
    Cert.ReferenceIdeal.ReadP.val_main_v62 (F := Ideal) x0 x1 x3 x4 x5 x6 x7 = Cert.Vocab.G x0 x1 x3 x4 x5 x6 x7 := by
  funext i
  obtain ⟨b, k, rfl⟩ : ∃ b k, i = ix2 b k := ⟨i 0, i 1, eq_ix2 i⟩
  rw [out_eq]
  rfl

end Cert.RefValue

end
-- ==== Proof.KHost.lean ====
/-
  What the kernel's region finds in its operand arrays: the host operations before the region, read at an index.

  Window 0's array is the aggregate of the 11 input features along the edges (`Spec.aggF` at the common
  vocabulary's weights, sources and targets: the host computes the weights, the source column and the target
  column by the same operations as the reference); window 1's array is the graph numbers kept as a column;
  windows 3 and 5 are the two bias vectors kept as rows; windows 2 and 4 are the two weight matrices as launched.
-/
import proofs.«410704_j68461778698659_3_alg».proof.Proof.Gen.KernelIdeal.Frame
import proofs.«410704_j68461778698659_3_alg».proof.Proof.Vocab
import proofs.«410704_j68461778698659_3_alg».proof.Proof.LibScatterRows
import Idealize.ShloMosaic.Lib.ValueLayout
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.ShloMosaic.ValueIdx Idealize.SL.Sem

/-! ## The aggregate's array as one term, for any float values -/

section Generic
variable {F : FTy → Type} [FloatOps F]
variable (mF : (ℓ : Loc nD τ sig) → Buf (Elt F) ℓ)

/-- The aggregate's array as the operations' term, for any float values: a scatter-add, into a zero splat and at the
    reference's column of target words, of the rows gathered at the reference's column of source words, each scaled
    by the reference's edge weight. The weights, the source column and the target column are computed from the edge
    list by the same operations in both programs (the shapes are the same literals, the side conditions are proofs
    of the same propositions, the dimension records have the same fields), so the kernel's terms for them ARE the
    reference's stages, by unfolding. -/
theorem agg_term (c : Dev nD) :
    (V mF c main_v41 : (⟨S1000000x11, .f32⟩ : BufTy).Contents (Elt F))
      = Host.scatterAdd scatter_S1000000x11_S2000000x1_S2000000x11_1_0_0_1
          (broadcastInDim S1000000x11 ![] bcast_S_S1000000x11 (constant S_ .f32 0x00000000#32))
          (Cert.ReferenceIdeal.ReadP.val_main_v41 (F := F) (mF ((c : Thread nD τ).loc main_arg1)))
          (mulf (Host.gather gather_S1000000x11_S2000000x1_S2000000x11_1_0_n_n_0_1_111 (mF ((c : Thread nD τ).loc main_arg0))
                   (Cert.ReferenceIdeal.ReadP.val_main_v35 (F := F) (mF ((c : Thread nD τ).loc main_arg1))))
                (broadcastInDim S2000000x11 ![0, 1] bcast_S2000000x1_S2000000x11_0_1
                   (broadcastInDim S2000000x1 ![0] bcast_S2000000_S2000000x1_0
                      (Cert.ReferenceIdeal.ReadP.val_main_v28 (F := F) (mF ((c : Thread nD τ).loc main_arg1)))))) := by
  dsimp only [Gen.V]
  simp only [Gen.hostOps0, Gen.hostOps0_1, Gen.hostOps0_2, List.flatten_cons, List.flatten_nil, List.append_nil,
    List.cons_append, List.nil_append]
  after_results_simp
  rfl

end Generic

variable (m : (ℓ : Loc nD τ sig) → Buf (Elt Ideal) ℓ)

/-- The arguments as launched, at their literal types. -/
abbrev a0 (c : Dev nD) : Vec Ideal S1000000x11 .f32 := m ((c : Thread nD τ).loc main_arg0)
abbrev a1 (c : Dev nD) : Vec Ideal S2x2000000 .i32 := m ((c : Thread nD τ).loc main_arg1)
abbrev a3 (c : Dev nD) : Vec Ideal S1000000 .i32 := m ((c : Thread nD τ).loc main_arg3)
abbrev a4 (c : Dev nD) : Vec Ideal S11x64 .f32 := m ((c : Thread nD τ).loc main_arg4)
abbrev a5 (c : Dev nD) : Vec Ideal S64 .f32 := m ((c : Thread nD τ).loc main_arg5)
abbrev a6 (c : Dev nD) : Vec Ideal S64x19 .f32 := m ((c : Thread nD τ).loc main_arg6)
abbrev a7 (c : Dev nD) : Vec Ideal S19 .f32 := m ((c : Thread nD τ).loc main_arg7)

/-- The operand arrays as the region finds them, at their literal types. -/
abbrev aggArr (c : Dev nD) : Vec Ideal S1000000x11 .f32 := V m c main_v41
abbrev segArr (c : Dev nD) : Vec Ideal S1000000x1 .i32 := V m c main_v44
abbrev bcArr (c : Dev nD) : Vec Ideal S1x64 .f32 := V m c main_v42
abbrev blArr (c : Dev nD) : Vec Ideal S1x19 .f32 := V m c main_v43
abbrev wcArr (c : Dev nD) : Vec Ideal S11x64 .f32 := V m c main_arg4
abbrev wlArr (c : Dev nD) : Vec Ideal S64x19 .f32 := V m c main_arg6

/-! ## The three reshapes -/

/-- The first bias kept as a row: the operations' term. -/
theorem bc_term (c : Dev nD) :
    (V m c main_v42 : S1x64.Idx → EReal)
      = shapeCast S1x64 (m ((c : Thread nD τ).loc main_arg5) : S64.Idx → EReal) shapeCasts_S64_S1x64 := by
  dsimp only [Gen.V]
  simp only [Gen.hostOps0, Gen.hostOps0_1, Gen.hostOps0_2, List.flatten_cons, List.flatten_nil, List.append_nil,
    List.cons_append, List.nil_append]
  after_results_simp
  rfl

/-- The last bias kept as a row: the operations' term. -/
theorem bl_term (c : Dev nD) :
    (V m c main_v43 : S1x19.Idx → EReal)
      = shapeCast S1x19 (m ((c : Thread nD τ).loc main_arg7) : S19.Idx → EReal) shapeCasts_S19_S1x19 := by
  dsimp only [Gen.V]
  simp only [Gen.hostOps0, Gen.hostOps0_1, Gen.hostOps0_2, List.flatten_cons, List.flatten_nil, List.append_nil,
    List.cons_append, List.nil_append]
  after_results_simp
  rfl

/-- The graph numbers kept as a column: the operations' term. -/
theorem seg_term (c : Dev nD) :
    (V m c main_v44 : S1000000x1.Idx → BitVec 32)
      = shapeCast S1000000x1 (m ((c : Thread nD τ).loc main_arg3) : S1000000.Idx → BitVec 32)
          shapeCasts_S1000000_S1000000x1 := by
  dsimp only [Gen.V]
  simp only [Gen.hostOps0, Gen.hostOps0_1, Gen.hostOps0_2, List.flatten_cons, List.flatten_nil, List.append_nil,
    List.cons_append, List.nil_append]
  after_results_simp
  rfl

/-- An `[a]` array cast to a column `[a, 1]` reads, at `(i, u)`, the operand at `i`: in row-major order entry
    `(i, u)` of the column is entry `i · 1 + u = i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The aggregate read at an entry -/

/-- That term read at entry `(n, f)`, over any operands of the literal types: zero plus the sum, over the edges whose
    target word read signed is `n`, of the feature `f` of the row at the source word (read signed, clamped into the
    node range) times the edge's weight. -/
theorem agg_read (x0 : FVec Ideal S1000000x11 .f32) (T Sc : IVec S2000000x1 32) (W : FVec Ideal S2000000 .f32)
    (n : Fin 1000000) (f : Fin 11) :
    Host.scatterAdd scatter_S1000000x11_S2000000x1_S2000000x11_1_0_0_1
        (broadcastInDim S1000000x11 ![] bcast_S_S1000000x11 (constant (F := Ideal) S_ .f32 0x00000000#32)) T
        (mulf (Host.gather gather_S1000000x11_S2000000x1_S2000000x11_1_0_n_n_0_1_111 x0 Sc)
          (broadcastInDim S2000000x11 ![0, 1] bcast_S2000000x1_S2000000x11_0_1
            (broadcastInDim S2000000x1 ![0] bcast_S2000000_S2000000x1_0 W))) (ix2 n f)
      = 0 + ∑ e : Fin 2000000, if (T (ix2 e (0 : Fin 1))).toInt = (n.val : Int)
          then x0 (ix2 ⟨min (Sc (ix2 e (0 : Fin 1))).toInt.toNat (1000000 - 1), by omega⟩ f) * W (ix1 e) else 0 := by
  rw [Cert.LibScatterRows.scatterAdd_rows_apply scatter_S1000000x11_S2000000x1_S2000000x11_1_0_0_1 rfl rfl rfl rfl]
  -- the operand is the zero splat
  have hz : broadcastInDim S1000000x11 ![] bcast_S_S1000000x11 (constant (F := Ideal) S_ .f32 0x00000000#32) (ix2 n f) = 0 := by
    rw [broadcastInDim_apply _ bcast_S_S1000000x11 _ (ix2 n f) ix0 (fun a => a.elim0)]
    exact Ideal.ofBits_zero_f32
  rw [hz]
  refine congrArg (fun s => (0 : EReal) + s) (Finset.sum_congr rfl fun e _ => ?_)
  ·
    -- update entry (e, f): the gathered row's feature times the weight spread along the row
    have hb : mulf (Host.gather gather_S1000000x11_S2000000x1_S2000000x11_1_0_n_n_0_1_111 x0 Sc)
          (broadcastInDim S2000000x11 ![0, 1] bcast_S2000000x1_S2000000x11_0_1
            (broadcastInDim S2000000x1 ![0] bcast_S2000000_S2000000x1_0 W)) (ix2 e f)
        = x0 (ix2 ⟨min (Sc (ix2 e (0 : Fin 1))).toInt.toNat (1000000 - 1), by omega⟩ f) * W (ix1 e) := by
      rw [mulf_apply,
        Cert.LibScatterRows.gather_rows_apply gather_S1000000x11_S2000000x1_S2000000x11_1_0_n_n_0_1_111
          rfl rfl rfl rfl rfl rfl x0 Sc e f (by norm_num),
        broadcastInDim_apply _ bcast_S2000000x1_S2000000x11_0_1 _ (ix2 e f) (ix2 e (0 : Fin 1)) (fun a => match a with
          | ⟨0, _⟩ => by show e.val = if (2000000 : Nat) = 1 then 0 else e.val; rw [if_neg (by decide)]
          | ⟨1, _⟩ => by show 0 = if (1 : Nat) = 1 then 0 else f.val; rw [if_pos rfl]),
        broadcastInDim_apply _ bcast_S2000000_S2000000x1_0 W (ix2 e (0 : Fin 1)) (ix1 e) (fun a => match a with
          | ⟨0, _⟩ => by show e.val = if (2000000 : Nat) = 1 then 0 else e.val; rw [if_neg (by decide)])]
    rw [hb]

/-- Window 0's array: the 11 features aggregated along the edges. -/
theorem aggArr_apply (c : Dev nD) (n : Fin 1000000) (f : Fin 11) :
    aggArr m c (ix2 n f)
      = Cert.Spec.aggF (Cert.Vocab.wtOf (a1 m c)) (Cert.Vocab.srcOf (a1 m c)) (Cert.Vocab.tgtOf (a1 m c))
          (fun (p : Fin 1000000) (q : Fin 11) => a0 m c (ix2 p q)) n f := by
  show (V m c main_v41 : S1000000x11.Idx → EReal) (ix2 n f) = _
  rw [agg_term m c, agg_read]
  -- the vocabulary's weight, source and target of an edge are these readings of the reference's stages
  rfl

/-- Window 1's array: the graph numbers as a column. -/
theorem segArr_apply (c : Dev nD) (n : Fin 1000000) :
    segArr m c (ix2 n (0 : Fin 1)) = a3 m c (ix1 n) := by
  show (V m c main_v44 : S1000000x1.Idx → BitVec 32) (ix2 n (0 : Fin 1)) = _
  rw [seg_term]
  exact shapeCast_a_a1_apply _ _ n 0

/-- Window 3's array: the first bias as a row. -/
theorem bcArr_apply (c : Dev nD) (j : Fin 64) :
    bcArr m c (ix2 (0 : Fin 1) j) = a5 m c (ix1 j) := by
  show (V m c main_v42 : S1x64.Idx → EReal) (ix2 (0 : Fin 1) j) = _
  rw [bc_term]
  exact shapeCast_a_1a_apply _ _ 0 j

/-- Window 5's array: the last bias as a row. -/
theorem blArr_apply (c : Dev nD) (k : Fin 19) :
    blArr m c (ix2 (0 : Fin 1) k) = a7 m c (ix1 k) := by
  show (V m c main_v43 : S1x19.Idx → EReal) (ix2 (0 : Fin 1) k) = _
  rw [bl_term]
  exact shapeCast_a_1a_apply _ _ 0 k

/-- Windows 2 and 4: the weight matrices as launched. -/
theorem wcArr_eq (c : Dev nD) : wcArr m c = a4 m c := V_main_arg4 m c
theorem wlArr_eq (c : Dev nD) : wlArr m c = a6 m c := V_main_arg6 m c

end Cert.KernelIdeal.KHost

end
-- ==== Proof.KBlocks.lean ====
/-
  The input windows' blocks at a grid point, read off their arrays: point `n` of the hundred stages rows
  `10000·n … 10000·n + 9999` of the aggregated features and of the graph-number column, and the whole of the two
  weight matrices and the two bias rows.
-/
import proofs.«410704_j68461778698659_3_alg».proof.Proof.KHost

noncomputable section

namespace Cert.KernelIdeal.KBlocks

open Cert.KernelIdeal Cert.KernelIdeal.Gen Cert.KernelIdeal.KHost Idealize.ShloMosaic Idealize.ShloMosaic.TcCoe Idealize.ShloMosaic.ValueIdx Idealize.SL.Sem

variable (m : (ℓ : Loc nD τ sig) → Buf (Elt Ideal) ℓ)

/-- The six input blocks at point `t`, at their literal types. -/
abbrev blk0 (c : Dev nD) (t : Fin cfg0.N) : Vec Ideal S10000x11 .f32 := iblk m c 0 t
abbrev blk1 (c : Dev nD) (t : Fin cfg0.N) : Vec Ideal S10000x1 .i32 := iblk m c 1 t
abbrev blk2 (c : Dev nD) (t : Fin cfg0.N) : Vec Ideal S11x64 .f32 := iblk m c 2 t
abbrev blk3 (c : Dev nD) (t : Fin cfg0.N) : Vec Ideal S1x64 .f32 := iblk m c 3 t
abbrev blk4 (c : Dev nD) (t : Fin cfg0.N) : Vec Ideal S64x19 .f32 := iblk m c 4 t
abbrev blk5 (c : Dev nD) (t : Fin cfg0.N) : Vec Ideal S1x19 .f32 := iblk m c 5 t

/-- The grid has a hundred points. -/
theorem N_eq : cfg0.N = 100 := N_0

/-- The six index maps, decided once over the hundred points: windows 0 and 1 move down the rows with the point,
    windows 2 to 5 stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each window's block of ANY array of the window's shape

A block's coordinate on an axis is (block index) × (block size) + 1 × (coordinate inside the block). -/

/-- Window 0 at point `n` reads rows `10000·n … 10000·n + 9999`, all 11 columns. -/
theorem read0 (A : Vec Ideal S1000000x11 .f32) (n : ℕ) (hn : n < cfg0.N) (r : Fin 10000) (f : Fin 11) :
    ((cfg0.win 0).blk ⟨n, hn⟩).view.read (Elt Ideal) A (ix2 r f)
      = A (ix2 ⟨10000 * n + r.val, by have := N_eq; omega⟩ f) := by
  obtain ⟨e0, e1, -⟩ := idx_facts ⟨n, hn⟩
  replace e0 : win0_0.index ⟨n, hn⟩ (0 : Fin 2) = n := e0
  show A (((cfg0.win 0).blk ⟨n, hn⟩).view.emb (ix2 r f)) = A (ix2 ⟨10000 * n + r.val, _⟩ f)
  refine congrArg A ?_
  funext a; apply Fin.ext
  match a with
  | ⟨0, _⟩ =>
    show win0_0.index ⟨n, hn⟩ (0 : Fin 2) * 10000 + 1 * r.val = 10000 * n + r.val
    rw [e0]; omega
  | ⟨1, _⟩ =>
    show win0_0.index ⟨n, hn⟩ (1 : Fin 2) * 11 + 1 * f.val = f.val
    rw [e1]; omega

/-- Window 1 at point `n` reads rows `10000·n … 10000·n + 9999` of the one column. -/
theorem read1 (A : Vec Ideal S1000000x1 .i32) (n : ℕ) (hn : n < cfg0.N) (r : Fin 10000) :
    ((cfg0.win 1).blk ⟨n, hn⟩).view.read (Elt Ideal) A (ix2 r (0 : Fin 1))
      = A (ix2 ⟨10000 * n + r.val, by have := N_eq; omega⟩ (0 : Fin 1)) := by
  obtain ⟨-, -, e0, e1, -⟩ := idx_facts ⟨n, hn⟩
  replace e0 : win0_1.index ⟨n, hn⟩ (0 : Fin 2) = n := e0
  show A (((cfg0.win 1).blk ⟨n, hn⟩).view.emb (ix2 r (0 : Fin 1))) = A (ix2 ⟨10000 * n + r.val, _⟩ (0 : Fin 1))
  refine congrArg A ?_
  funext a; apply Fin.ext
  match a with
  | ⟨0, _⟩ =>
    show win0_1.index ⟨n, hn⟩ (0 : Fin 2) * 10000 + 1 * r.val = 10000 * n + r.val
    rw [e0]; omega
  | ⟨1, _⟩ =>
    show win0_1.index ⟨n, hn⟩ (1 : Fin 2) * 1 + 1 * 0 = 0
    rw [e1]

/-- Window 2's block is the whole array at every point. -/
theorem read2 (A : Vec Ideal S11x64 .f32) (t : Fin cfg0.N) :
    ((cfg0.win 2).blk t).view.read (Elt Ideal) A = A := by
  obtain ⟨-, -, -, -, e0, e1, -⟩ := idx_facts t
  funext y
  show A (((cfg0.win 2).blk t).view.emb y) = A y
  refine congrArg A ?_
  funext a; apply Fin.ext
  match a with
  | ⟨0, _⟩ => show win0_2.index t (0 : Fin 2) * 11 + 1 * (y 0).val = (y 0).val; rw [e0]; omega
  | ⟨1, _⟩ => show win0_2.index t (1 : Fin 2) * 64 + 1 * (y 1).val = (y 1).val; rw [e1]; omega

/-- Window 3's block is the whole row at every point. -/
theorem read3 (A : Vec Ideal S1x64 .f32) (t : Fin cfg0.N) :
    ((cfg0.win 3).blk t).view.read (Elt Ideal) A = A := by
  obtain ⟨-, -, -, -, -, -, e0, e1, -⟩ := idx_facts t
  funext y
  show A (((cfg0.win 3).blk t).view.emb y) = A y
  refine congrArg A ?_
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block is the whole array at every point. -/
theorem read4 (A : Vec Ideal S64x19 .f32) (t : Fin cfg0.N) :
    ((cfg0.win 4).blk t).view.read (Elt Ideal) A = A := by
  obtain ⟨-, -, -, -, -, -, -, -, e0, e1, -⟩ := idx_facts t
  funext y
  show A (((cfg0.win 4).blk t).view.emb y) = A y
  refine congrArg A ?_
  funext a; apply Fin.ext
  match a with
  | ⟨0, _⟩ => show win0_4.index t (0 : Fin 2) * 64 + 1 * (y 0).val = (y 0).val; rw [e0]; omega
  | ⟨1, _⟩ => show win0_4.index t (1 : Fin 2) * 19 + 1 * (y 1).val = (y 1).val; rw [e1]; omega

/-- Window 5's block is the whole row at every point. -/
theorem read5 (A : Vec Ideal S1x19 .f32) (t : Fin cfg0.N) :
    ((cfg0.win 5).blk t).view.read (Elt Ideal) A = A := by
  obtain ⟨-, -, -, -, -, -, -, -, -, -, e0, e1⟩ := idx_facts t
  funext y
  show A (((cfg0.win 5).blk t).view.emb y) = A y
  refine congrArg A ?_
  funext a; apply Fin.ext
  match a with
  | ⟨0, _⟩ => show win0_5.index t (0 : Fin 2) * 1 + 1 * (y 0).val = (y 0).val; rw [e0]; omega
  | ⟨1, _⟩ => show win0_5.index t (1 : Fin 2) * 19 + 1 * (y 1).val = (y 1).val; rw [e1]; omega

/-! ## The six blocks off the operand arrays -/

/-- Row `r` of the feature block at point `n` is row `10000·n + r` of the aggregated features. -/
theorem blk0_apply (c : Dev nD) (n : ℕ) (hn : n < cfg0.N) (r : Fin 10000) (f : Fin 11) :
    blk0 m c ⟨n, hn⟩ (ix2 r f)
      = aggArr m c (ix2 ⟨10000 * n + r.val, by have := N_eq; omega⟩ f) := by
  exact read0 (aggArr m c) n hn r f

/-- Row `r` of the graph-number block at point `n` is row `10000·n + r` of the column. -/
theorem blk1_apply (c : Dev nD) (n : ℕ) (hn : n < cfg0.N) (r : Fin 10000) :
    blk1 m c ⟨n, hn⟩ (ix2 r (0 : Fin 1))
      = segArr m c (ix2 ⟨10000 * n + r.val, by have := N_eq; omega⟩ (0 : Fin 1)) := by
  exact read1 (segArr m c) n hn r

/-- The first weight matrix's block is the whole matrix, at every point. -/
theorem blk2_eq (c : Dev nD) (t : Fin cfg0.N) : blk2 m c t = wcArr m c := by
  exact read2 (wcArr m c) t

/-- The first bias row's block is the whole row. -/
theorem blk3_eq (c : Dev nD) (t : Fin cfg0.N) : blk3 m c t = bcArr m c := by
  exact read3 (bcArr m c) t

/-- The last weight matrix's block is the whole matrix. -/
theorem blk4_eq (c : Dev nD) (t : Fin cfg0.N) : blk4 m c t = wlArr m c := by
  exact read4 (wlArr m c) t

/-- The last bias row's block is the whole row. -/
theorem blk5_eq (c : Dev nD) (t : Fin cfg0.N) : blk5 m c t = blArr m c := by
  exact read5 (blArr m c) t

end Cert.KernelIdeal.KBlocks

end
-- ==== Proof.KPay.lean ====
/-
  The kernel body's arithmetic read at an index, on the extended reals.

  Per tile of 10,000 nodes the body forms the hidden features `max (Σ_f a[r, f] · W[f, j] + bias[j]) 0` of each
  node `r` of the tile, the 0/1 membership matrix `[graph of node r is b]`, and adds the membership-weighted
  column sums into the two accumulators: features per graph, and node counts per graph. At the last tile the head
  divides the feature sums by the counts floored at one and applies the last linear layer. A change of float format
  is the identity here, a product with a 0/1 entry is a choice, and a matrix product into a zero accumulator is
  the plain sum over the contracted axis.
-/
import proofs.«410704_j68461778698659_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StableHlo.Predicate

noncomputable section

open scoped BigOperators

namespace Cert.KernelIdeal.Pay

open Cert.KernelIdeal Cert.KernelIdeal.Gen Idealize.ShloMosaic Idealize.ShloMosaic.ValueIdx

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A small natural as a 32-bit word reads back, signed, as itself. -/
theorem toInt_ofNat_small (b : ℕ) (hb : b < 128) : (BitVec.ofNat 32 b).toInt = (b : Int) := by
  rw [BitVec.toInt_eq_toNat_cond, BitVec.toNat_ofNat]
  have : b % 2 ^ 32 = b := Nat.mod_eq_of_lt (by omega)
  rw [this]
  split
  · rfl
  · omega

/-- A word is the word of a small natural exactly when it reads, signed, as that natural. -/
theorem eq_ofNat_iff_toInt (w : BitVec 32) (b : ℕ) (hb : b < 128) : w = BitVec.ofNat 32 b ↔ w.toInt = (b : Int) := by
  constructor
  · rintro rfl; exact toInt_ofNat_small b hb
  · intro h; exact BitVec.toInt_inj.mp (h.trans (toInt_ofNat_small b hb).symm)

/-- The compare bit, widened and read as a signed integer on the extended reals, is the 0/1 choice. -/
theorem bit_value (w : BitVec 32) (b : ℕ) (hb : b < 128) :
    ((((IntOp.cmpi .eq w (BitVec.ofNat 32 b)).setWidth 32).toInt : ℝ) : EReal) = if w.toInt = (b : Int) then 1 else 0 := by
  by_cases h : w.toInt = (b : Int)
  · rw [if_pos h, StableHlo.Predicate.cmpi_eq_iff.mpr ((eq_ofNat_iff_toInt w b hb).mpr h)]
    have : ((1#1 : BitVec 1).setWidth 32).toInt = 1 := by decide
    rw [this]
    norm_num
  · rw [if_neg h]
    have hne : ¬ IntOp.cmpi .eq w (BitVec.ofNat 32 b) = 1#1 := fun hc =>
      h ((eq_ofNat_iff_toInt w b hb).mp (StableHlo.Predicate.cmpi_eq_iff.mp hc))
    rw [eq_zero_of_ne_one hne]
    have : ((0#1 : BitVec 1).setWidth 32).toInt = 0 := by decide
    rw [this]
    norm_num

/-! ## The four matrix products, each read at an index -/

theorem lhsA_0 (i : S10000x64.Idx) (q : dot_S10000x11_S11x64_S10000x64_1_0_0_1_n_n.contr.Idx) :
    (dot_S10000x11_S11x64_S10000x64_1_0_0_1_n_n.lhsIdx i q 0).val = (i 0).val := by
  unfold DotDims.lhsIdx
  rw [dif_neg (show ¬(0 : Fin S10000x11.rank) ∈ dot_S10000x11_S11x64_S10000x64_1_0_0_1_n_n.lhsBatch by decide), dif_pos (show (0 : Fin S10000x11.rank) ∈ dot_S10000x11_S11x64_S10000x64_1_0_0_1_n_n.lhsNonContracting by decide)]
  rfl
theorem lhsA_1 (i : S10000x64.Idx) (q : dot_S10000x11_S11x64_S10000x64_1_0_0_1_n_n.contr.Idx) :
    (dot_S10000x11_S11x64_S10000x64_1_0_0_1_n_n.lhsIdx i q 1).val = (q ⟨0, by decide⟩).val :=
  dot_S10000x11_S11x64_S10000x64_1_0_0_1_n_n.lhsIdx_val_of_single rfl i q
theorem rhsA_0 (i : S10000x64.Idx) (q : dot_S10000x11_S11x64_S10000x64_1_0_0_1_n_n.contr.Idx) :
    (dot_S10000x11_S11x64_S10000x64_1_0_0_1_n_n.rhsIdx i q 0).val = (q ⟨0, by decide⟩).val :=
  dot_S10000x11_S11x64_S10000x64_1_0_0_1_n_n.rhsIdx_val_of_single rfl i q
theorem rhsA_1 (i : S10000x64.Idx) (q : dot_S10000x11_S11x64_S10000x64_1_0_0_1_n_n.contr.Idx) :
    (dot_S10000x11_S11x64_S10000x64_1_0_0_1_n_n.rhsIdx i q 1).val = (i 1).val := by
  unfold DotDims.rhsIdx
  rw [dif_neg (show ¬(1 : Fin S11x64.rank) ∈ dot_S10000x11_S11x64_S10000x64_1_0_0_1_n_n.rhsBatch by decide), dif_pos (show (1 : Fin S11x64.rank) ∈ dot_S10000x11_S11x64_S10000x64_1_0_0_1_n_n.rhsNonContracting by decide)]
  rfl

/-- Rows of the tile through the 11 × 64 matrix: entry `(r, j)` is the sum over the 11 features. -/
theorem matmulA_apply {φ₁ φ₂ : FTy} (lhs : FVec Ideal S10000x11 φ₁) (rhs : FVec Ideal S11x64 φ₂) (r : Fin 10000) (j : Fin 64) :
    FloatOps.matmul dot_S10000x11_S11x64_S10000x64_1_0_0_1_n_n none lhs rhs (constant (F := Ideal) S10000x64 .f32 0x00000000#32) (ix2 r j)
      = ∑ k : Fin 11, lhs (ix2 r k) * rhs (ix2 k j) := by
  rw [Ideal.matmul_constant_zero_apply, ← Equiv.sum_comp (contrEquiv1 dot_S10000x11_S11x64_S10000x64_1_0_0_1_n_n 11 rfl rfl).symm]
  refine Finset.sum_congr rfl fun k _ => ?_
  have hk := contrEquiv1_symm_val dot_S10000x11_S11x64_S10000x64_1_0_0_1_n_n 11 rfl rfl k
  have el : dot_S10000x11_S11x64_S10000x64_1_0_0_1_n_n.lhsIdx (ix2 r j) ((contrEquiv1 dot_S10000x11_S11x64_S10000x64_1_0_0_1_n_n 11 rfl rfl).symm k) = ix2 r k := funext fun a => Fin.ext (by
    match a with
    | ⟨0, _⟩ => exact lhsA_0 _ _
    | ⟨1, _⟩ => exact (lhsA_1 _ _).trans hk)
  have er : dot_S10000x11_S11x64_S10000x64_1_0_0_1_n_n.rhsIdx (ix2 r j) ((contrEquiv1 dot_S10000x11_S11x64_S10000x64_1_0_0_1_n_n 11 rfl rfl).symm k) = ix2 k j := funext fun a => Fin.ext (by
    match a with
    | ⟨0, _⟩ => exact (rhsA_0 _ _).trans hk
    | ⟨1, _⟩ => exact rhsA_1 _ _)
  rw [el, er]

theorem lhsB_0 (i : S128x19.Idx) (q : dot_S128x64_S64x19_S128x19_1_0_0_1_n_n.contr.Idx) :
    (dot_S128x64_S64x19_S128x19_1_0_0_1_n_n.lhsIdx i q 0).val = (i 0).val := by
  unfold DotDims.lhsIdx
  rw [dif_neg (show ¬(0 : Fin S128x64.rank) ∈ dot_S128x64_S64x19_S128x19_1_0_0_1_n_n.lhsBatch by decide), dif_pos (show (0 : Fin S128x64.rank) ∈ dot_S128x64_S64x19_S128x19_1_0_0_1_n_n.lhsNonContracting by decide)]
  rfl
theorem lhsB_1 (i : S128x19.Idx) (q : dot_S128x64_S64x19_S128x19_1_0_0_1_n_n.contr.Idx) :
    (dot_S128x64_S64x19_S128x19_1_0_0_1_n_n.lhsIdx i q 1).val = (q ⟨0, by decide⟩).val :=
  dot_S128x64_S64x19_S128x19_1_0_0_1_n_n.lhsIdx_val_of_single rfl i q
theorem rhsB_0 (i : S128x19.Idx) (q : dot_S128x64_S64x19_S128x19_1_0_0_1_n_n.contr.Idx) :
    (dot_S128x64_S64x19_S128x19_1_0_0_1_n_n.rhsIdx i q 0).val = (q ⟨0, by decide⟩).val :=
  dot_S128x64_S64x19_S128x19_1_0_0_1_n_n.rhsIdx_val_of_single rfl i q
theorem rhsB_1 (i : S128x19.Idx) (q : dot_S128x64_S64x19_S128x19_1_0_0_1_n_n.contr.Idx) :
    (dot_S128x64_S64x19_S128x19_1_0_0_1_n_n.rhsIdx i q 1).val = (i 1).val := by
  unfold DotDims.rhsIdx
  rw [dif_neg (show ¬(1 : Fin S64x19.rank) ∈ dot_S128x64_S64x19_S128x19_1_0_0_1_n_n.rhsBatch by decide), dif_pos (show (1 : Fin S64x19.rank) ∈ dot_S128x64_S64x19_S128x19_1_0_0_1_n_n.rhsNonContracting by decide)]
  rfl

/-- The per-graph means through the 64 × 19 matrix: entry `(b, k)` is the sum over the 64 hidden features. -/
theorem matmulB_apply {φ₁ φ₂ : FTy} (lhs : FVec Ideal S128x64 φ₁) (rhs : FVec Ideal S64x19 φ₂) (b : Fin 128) (k : Fin 19) :
    FloatOps.matmul dot_S128x64_S64x19_S128x19_1_0_0_1_n_n none lhs rhs (constant (F := Ideal) S128x19 .f32 0x00000000#32) (ix2 b k)
      = ∑ j : Fin 64, lhs (ix2 b j) * rhs (ix2 j k) := by
  rw [Ideal.matmul_constant_zero_apply, ← Equiv.sum_comp (contrEquiv1 dot_S128x64_S64x19_S128x19_1_0_0_1_n_n 64 rfl rfl).symm]
  refine Finset.sum_congr rfl fun j _ => ?_
  have hj := contrEquiv1_symm_val dot_S128x64_S64x19_S128x19_1_0_0_1_n_n 64 rfl rfl j
  have el : dot_S128x64_S64x19_S128x19_1_0_0_1_n_n.lhsIdx (ix2 b k) ((contrEquiv1 dot_S128x64_S64x19_S128x19_1_0_0_1_n_n 64 rfl rfl).symm j) = ix2 b j := funext fun a => Fin.ext (by
    match a with
    | ⟨0, _⟩ => exact lhsB_0 _ _
    | ⟨1, _⟩ => exact (lhsB_1 _ _).trans hj)
  have er : dot_S128x64_S64x19_S128x19_1_0_0_1_n_n.rhsIdx (ix2 b k) ((contrEquiv1 dot_S128x64_S64x19_S128x19_1_0_0_1_n_n 64 rfl rfl).symm j) = ix2 j k := funext fun a => Fin.ext (by
    match a with
    | ⟨0, _⟩ => exact (rhsB_0 _ _).trans hj
    | ⟨1, _⟩ => exact rhsB_1 _ _)
  rw [el, er]

theorem lhsC_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem lhsC_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
theorem rhsC_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem rhsC_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- The membership matrix, transposed, against the tile's hidden features: entry `(b, j)` is the sum over the tile's
    10,000 nodes. -/
theorem matmulC_apply {φ₁ φ₂ : FTy} (lhs : FVec Ideal S10000x128 φ₁) (rhs : FVec Ideal S10000x64 φ₂) (b : Fin 128) (j : Fin 64) :
    FloatOps.matmul dot_S10000x128_S10000x64_S128x64_0_0_1_1_n_n none lhs rhs (constant (F := Ideal) S128x64 .f32 0x00000000#32) (ix2 b j)
      = ∑ r : Fin 10000, lhs (ix2 r b) * rhs (ix2 r j) := by
  rw [Ideal.matmul_constant_zero_apply, ← Equiv.sum_comp (contrEquiv1 dot_S10000x128_S10000x64_S128x64_0_0_1_1_n_n 10000 rfl rfl).symm]
  refine Finset.sum_congr rfl fun r _ => ?_
  have hr := contrEquiv1_symm_val dot_S10000x128_S10000x64_S128x64_0_0_1_1_n_n 10000 rfl rfl r
  have el : dot_S10000x128_S10000x64_S128x64_0_0_1_1_n_n.lhsIdx (ix2 b j) ((contrEquiv1 dot_S10000x128_S10000x64_S128x64_0_0_1_1_n_n 10000 rfl rfl).symm r) = ix2 r b := funext fun a => Fin.ext (by
    match a with
    | ⟨0, _⟩ => exact (lhsC_0 _ _).trans hr
    | ⟨1, _⟩ => exact lhsC_1 _ _)
  have er : dot_S10000x128_S10000x64_S128x64_0_0_1_1_n_n.rhsIdx (ix2 b j) ((contrEquiv1 dot_S10000x128_S10000x64_S128x64_0_0_1_1_n_n 10000 rfl rfl).symm r) = ix2 r j := funext fun a => Fin.ext (by
    match a with
    | ⟨0, _⟩ => exact (rhsC_0 _ _).trans hr
    | ⟨1, _⟩ => exact rhsC_1 _ _)
  rw [el, er]

theorem lhsD_0 (i : S128x1.Idx) (q : dot_S10000x128_S10000x1_S128x1_0_0_1_1_n_n.contr.Idx) :
    (dot_S10000x128_S10000x1_S128x1_0_0_1_1_n_n.lhsIdx i q 0).val = (q ⟨0, by decide⟩).val :=
  dot_S10000x128_S10000x1_S128x1_0_0_1_1_n_n.lhsIdx_val_of_single rfl i q
theorem lhsD_1 (i : S128x1.Idx) (q : dot_S10000x128_S10000x1_S128x1_0_0_1_1_n_n.contr.Idx) :
    (dot_S10000x128_S10000x1_S128x1_0_0_1_1_n_n.lhsIdx i q 1).val = (i 0).val := by
  unfold DotDims.lhsIdx
  rw [dif_neg (show ¬(1 : Fin S10000x128.rank) ∈ dot_S10000x128_S10000x1_S128x1_0_0_1_1_n_n.lhsBatch by decide), dif_pos (show (1 : Fin S10000x128.rank) ∈ dot_S10000x128_S10000x1_S128x1_0_0_1_1_n_n.lhsNonContracting by decide)]
  rfl
theorem rhsD_0 (i : S128x1.Idx) (q : dot_S10000x128_S10000x1_S128x1_0_0_1_1_n_n.contr.Idx) :
    (dot_S10000x128_S10000x1_S128x1_0_0_1_1_n_n.rhsIdx i q 0).val = (q ⟨0, by decide⟩).val :=
  dot_S10000x128_S10000x1_S128x1_0_0_1_1_n_n.rhsIdx_val_of_single rfl i q
theorem rhsD_1 (i : S128x1.Idx) (q : dot_S10000x128_S10000x1_S128x1_0_0_1_1_n_n.contr.Idx) :
    (dot_S10000x128_S10000x1_S128x1_0_0_1_1_n_n.rhsIdx i q 1).val = (i 1).val := by
  unfold DotDims.rhsIdx
  rw [dif_neg (show ¬(1 : Fin S10000x1.rank) ∈ dot_S10000x128_S10000x1_S128x1_0_0_1_1_n_n.rhsBatch by decide), dif_pos (show (1 : Fin S10000x1.rank) ∈ dot_S10000x128_S10000x1_S128x1_0_0_1_1_n_n.rhsNonContracting by decide)]
  rfl

/-- The membership matrix, transposed, against a column: entry `(b, u)` is the sum over the tile's 10,000 nodes. -/
theorem matmulD_apply {φ₁ φ₂ : FTy} (lhs : FVec Ideal S10000x128 φ₁) (rhs : FVec Ideal S10000x1 φ₂) (b : Fin 128) (u : Fin 1) :
    FloatOps.matmul dot_S10000x128_S10000x1_S128x1_0_0_1_1_n_n none lhs rhs (constant (F := Ideal) S128x1 .f32 0x00000000#32) (ix2 b u)
      = ∑ r : Fin 10000, lhs (ix2 r b) * rhs (ix2 r u) := by
  rw [Ideal.matmul_constant_zero_apply, ← Equiv.sum_comp (contrEquiv1 dot_S10000x128_S10000x1_S128x1_0_0_1_1_n_n 10000 rfl rfl).symm]
  refine Finset.sum_congr rfl fun r _ => ?_
  have hr := contrEquiv1_symm_val dot_S10000x128_S10000x1_S128x1_0_0_1_1_n_n 10000 rfl rfl r
  have el : dot_S10000x128_S10000x1_S128x1_0_0_1_1_n_n.lhsIdx (ix2 b u) ((contrEquiv1 dot_S10000x128_S10000x1_S128x1_0_0_1_1_n_n 10000 rfl rfl).symm r) = ix2 r b := funext fun a => Fin.ext (by
    match a with
    | ⟨0, _⟩ => exact (lhsD_0 _ _).trans hr
    | ⟨1, _⟩ => exact lhsD_1 _ _)
  have er : dot_S10000x128_S10000x1_S128x1_0_0_1_1_n_n.rhsIdx (ix2 b u) ((contrEquiv1 dot_S10000x128_S10000x1_S128x1_0_0_1_1_n_n 10000 rfl rfl).symm r) = ix2 r u := funext fun a => Fin.ext (by
    match a with
    | ⟨0, _⟩ => exact (rhsD_0 _ _).trans hr
    | ⟨1, _⟩ => exact rhsD_1 _ _)
  rw [el, er]

/-! ## The payloads -/

/-- The reset value of the feature accumulator is zero everywhere. -/
theorem pay3_apply (i : S128x64.Idx) : k0_pay3 (F := Ideal) i = 0 := by
  show Ideal.ofBits .f32 0x00000000#32 = 0
  exact Ideal.ofBits_zero_f32

/-- The reset value of the count accumulator is zero everywhere. -/
theorem pay4_apply (i : S128x1.Idx) : k0_pay4 (F := Ideal) i = 0 := by
  show Ideal.ofBits .f32 0x00000000#32 = 0
  exact Ideal.ofBits_zero_f32

/-- The count accumulator is stored as computed. -/
theorem pay1_eq {F : FTy → Type} [FloatOps F] (v33 : FVec F S128x1 .f32) : k0_pay1 v33 = v33 := by
  unfold k0_pay1
  exact shapeCast_self _ _

/-- The membership matrix: entry `(r, b)` is one when node `r` of the tile belongs to graph `b`, else zero. -/
theorem pay5_apply (v15 : Vec Ideal S10000x1 .i32) (r : Fin 10000) (b : Fin 128) :
    k0_pay5 (F := Ideal) v15 (ix2 r b) = if (v15 (ix2 r (0 : Fin 1))).toInt = (b.val : Int) then 1 else 0 := by
  unfold k0_pay5
  have e1 : broadcastTo S10000x128 (shapeCast S10000x1 v15 shapeCasts_S10000x1_S10000x1) broadcasts_S10000x1_S10000x128 (ix2 r b)
      = v15 (ix2 r (0 : Fin 1)) := by
    rw [shapeCast_self]
    exact broadcastTo_a1_ab_apply v15 _ r b
  have e2 : iota .tc S10000x128 32 [1] iota_S10000x128_d1_w32 (ix2 r b) = BitVec.ofNat 32 b.val :=
    iota_single_apply .tc S10000x128 32 1 _ (ix2 r b)
  show ((((IntOp.cmpi .eq (broadcastTo S10000x128 (shapeCast S10000x1 v15 shapeCasts_S10000x1_S10000x1) broadcasts_S10000x1_S10000x128 (ix2 r b))
      (iota .tc S10000x128 32 [1] iota_S10000x128_d1_w32 (ix2 r b))).setWidth 32).toInt : ℝ) : EReal) = _
  rw [e1, e2]
  exact bit_value _ b.val b.isLt

/-- The hidden feature `j` of node `r` of the tile: the row through the matrix, plus the bias, rectified. -/
theorem hidden_apply (v3 : Vec Ideal S10000x11 .f32) (v6 : Vec Ideal S11x64 .f32) (v9 : Vec Ideal S1x64 .f32)
    (r : Fin 10000) (j : Fin 64) :
    maximumf
        (addf
          (matmul dot_S10000x11_S11x64_S10000x64_1_0_0_1_n_n none (truncf .bf16 v3 bitsLt_bf16_f32)
            (truncf .bf16 v6 bitsLt_bf16_f32) (constant (F := Ideal) S10000x64 .f32 0x00000000#32))
          (broadcastTo S10000x64 v9 broadcasts_S1x64_S10000x64))
        (broadcast S10000x64 (FloatOps.ofBits (F := Ideal) .f32 0x00000000#32)) (ix2 r j)
      = max ((∑ f : Fin 11, v3 (ix2 r f) * v6 (ix2 f j)) + v9 (ix2 (0 : Fin 1) j)) 0 := by
  rw [maximumf_apply, addf_apply, broadcast_apply, broadcastTo_1b_ab_apply]
  refine congrArg₂ max (congrArg (· + v9 (ix2 (0 : Fin 1) j)) ((matmulA_apply _ _ r j).trans ?_)) Ideal.ofBits_zero_f32
  rfl

/-- The feature update of one tile at graph `b`, feature `j`: what the accumulator held plus the hidden features of
    the tile's nodes that belong to graph `b`. -/
theorem pay6_apply (v3 : Vec Ideal S10000x11 .f32) (v6 : Vec Ideal S11x64 .f32) (v9 : Vec Ideal S1x64 .f32)
    (v15 : Vec Ideal S10000x1 .i32) (v27 : Vec Ideal S128x64 .f32) (b : Fin 128) (j : Fin 64) :
    k0_pay6 (F := Ideal) v3 v6 v9 v15 v27 (ix2 b j)
      = v27 (ix2 b j) + ∑ r : Fin 10000, if (v15 (ix2 r (0 : Fin 1))).toInt = (b.val : Int)
          then max ((∑ f : Fin 11, v3 (ix2 r f) * v6 (ix2 f j)) + v9 (ix2 (0 : Fin 1) j)) 0 else 0 := by
  unfold k0_pay6
  simp only [shapeCast_self]
  rw [addf_apply]
  refine congrArg (v27 (ix2 b j) + ·) ?_
  refine (matmulC_apply _ _ b j).trans ?_
  refine Finset.sum_congr rfl fun r _ => ?_
  rw [pay5_apply, truncf_apply, hidden_apply, ite_mul, one_mul, zero_mul]

/-- The count update of one tile at graph `b`: what the accumulator held plus the number of the tile's nodes that
    belong to graph `b`. -/
theorem pay7_apply (v15 : Vec Ideal S10000x1 .i32) (v32 : Vec Ideal S128x1 .f32) (b : Fin 128) :
    k0_pay7 (F := Ideal) v15 v32 (ix2 b (0 : Fin 1))
      = v32 (ix2 b (0 : Fin 1)) + ∑ r : Fin 10000, if (v15 (ix2 r (0 : Fin 1))).toInt = (b.val : Int) then 1 else 0 := by
  unfold k0_pay7
  rw [addf_apply]
  refine congrArg (v32 (ix2 b (0 : Fin 1)) + ·) ?_
  refine (matmulD_apply _ _ b (0 : Fin 1)).trans ?_
  refine Finset.sum_congr rfl fun r _ => ?_
  rw [pay5_apply, broadcast_apply]
  have h1 : FloatOps.ofBits (F := Ideal) .bf16 0x3F80#16 = 1 := Ideal.ofBits_one_bf16
  rw [h1, mul_one]

/-- The head at graph `b`, class `k`: the feature sums over the count floored at one, through the last layer. -/
theorem pay2_apply (v40 : Vec Ideal S128x64 .f32) (v41 : Vec Ideal S128x1 .f32) (v46 : Vec Ideal S64x19 .f32)
    (v50 : Vec Ideal S1x19 .f32) (b : Fin 128) (k : Fin 19) :
    k0_pay2 (F := Ideal) v40 v41 v46 v50 (ix2 b k)
      = (∑ j : Fin 64, Ideal.div (v40 (ix2 b j)) (max (v41 (ix2 b (0 : Fin 1))) 1) * v46 (ix2 j k))
        + v50 (ix2 (0 : Fin 1) k) := by
  unfold k0_pay2
  simp only [shapeCast_self]
  rw [addf_apply, broadcastTo_1b_ab_apply]
  refine congrArg (· + v50 (ix2 (0 : Fin 1) k)) ?_
  refine (matmulB_apply _ _ b k).trans ?_
  refine Finset.sum_congr rfl fun j _ => ?_
  rw [truncf_apply, truncf_apply, divf_apply, broadcastTo_a1_ab_apply, maximumf_apply, broadcast_apply]
  have h1 : FloatOps.ofBits (F := Ideal) .f32 0x3F800000#32 = 1 := Ideal.ofBits_one_f32
  rw [h1]

end Cert.KernelIdeal.Pay

end
-- ==== Proof.KPieces.lean ====
/-
  What each control case of the kernel body leaves in the two carried accumulators and in the output block, as the
  body's own arithmetic (the payload terms) of the point's input blocks and of what the point before left.
  Generic in the float instance.
-/
import proofs.«410704_j68461778698659_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The literal offset vector of every whole-block load and store here is the zero vector. -/
private theorem hz : (![0, 0] : Fin 2 → Nat) = fun _ => 0 := funext fun a => by fin_cases a <;> rfl

/-- At the grid's first point the feature accumulator is reset and then holds the point's own contribution: the update over the zero array. -/
theorem sout0_A_0_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : cond0_0 i) (hc1 : ¬cond0_1 i)
    (x0 : Vec F S10000x11 .f32) (x1 : Vec F S10000x1 .i32) (x2 : Vec F S11x64 .f32) (x3 : Vec F S1x64 .f32) (x4 : Vec F S64x19 .f32) (x5 : Vec F S1x19 .f32) :
    sout0_A_0 c i arg1 harg1 arg2 harg2 arg3 harg3 arg4 harg4 arg5 harg5 arg6 harg6 arg7 harg7 arg8 harg8 arg9 harg9 hc0 hc1 x0 x1 x2 x3 x4 x5 = k0_pay6 x0 x2 x3 x1 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S128x64) hz, View.readCov_unit_zero (S := S128x64) _ hz]
  simp only [View.readAt_eq_ld, harg1.read_unread, harg2.read_unread, harg3.read_unread, harg4.read_unread,
    View.ld_unit_zero (S := S10000x11) hz, View.ld_unit_zero (S := S10000x1) hz, View.ld_unit_zero (S := S11x64) hz,
    View.ld_unit_zero (S := S1x64) hz]

/-- At the grid's first point the count accumulator is reset and then holds the point's own counts. -/
theorem sout0_A_1_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : cond0_0 i) (hc1 : ¬cond0_1 i)
    (x0 : Vec F S10000x11 .f32) (x1 : Vec F S10000x1 .i32) (x2 : Vec F S11x64 .f32) (x3 : Vec F S1x64 .f32) (x4 : Vec F S64x19 .f32) (x5 : Vec F S1x19 .f32) :
    sout0_A_1 c i arg1 harg1 arg2 harg2 arg3 harg3 arg4 harg4 arg5 harg5 arg6 harg6 arg7 harg7 arg8 harg8 arg9 harg9 hc0 hc1 x0 x1 x2 x3 x4 x5 = k0_pay1 (k0_pay7 x1 (k0_pay4 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S128x1) hz, View.readCov_unit_zero (S := S128x1) _ hz]
  simp only [View.readAt_eq_ld, harg2.read_unread, View.ld_unit_zero (S := S10000x1) hz]

/-- At an inner point the feature accumulator is what the point before left plus the point's contribution. -/
theorem sout0_B_0_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : ¬cond0_0 i) (hc1 : ¬cond0_1 i)
    (x0 : Vec F S10000x11 .f32) (x1 : Vec F S10000x1 .i32) (x2 : Vec F S11x64 .f32) (x3 : Vec F S1x64 .f32) (x4 : Vec F S64x19 .f32) (x5 : Vec F S1x19 .f32) (xs0 : Vec F S128x64 .f32) (xs1 : Vec F S128x1 .f32) :
    sout0_B_0 c i arg1 harg1 arg2 harg2 arg3 harg3 arg4 harg4 arg5 harg5 arg6 harg6 arg7 harg7 arg8 harg8 arg9 harg9 hc0 hc1 x0 x1 x2 x3 x4 x5 xs0 xs1 = k0_pay6 x0 x2 x3 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S128x64) hz]
  simp only [View.readAt_eq_ld, harg1.read_unread, harg2.read_unread, harg3.read_unread, harg4.read_unread, harg8.read_unread,
    View.ld_unit_zero (S := S10000x11) hz, View.ld_unit_zero (S := S10000x1) hz, View.ld_unit_zero (S := S11x64) hz,
    View.ld_unit_zero (S := S1x64) hz, View.ld_unit_zero (S := S128x64) hz]

/-- At an inner point the count accumulator is what the point before left plus the point's counts. -/
theorem sout0_B_1_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : ¬cond0_0 i) (hc1 : ¬cond0_1 i)
    (x0 : Vec F S10000x11 .f32) (x1 : Vec F S10000x1 .i32) (x2 : Vec F S11x64 .f32) (x3 : Vec F S1x64 .f32) (x4 : Vec F S64x19 .f32) (x5 : Vec F S1x19 .f32) (xs0 : Vec F S128x64 .f32) (xs1 : Vec F S128x1 .f32) :
    sout0_B_1 c i arg1 harg1 arg2 harg2 arg3 harg3 arg4 harg4 arg5 harg5 arg6 harg6 arg7 harg7 arg8 harg8 arg9 harg9 hc0 hc1 x0 x1 x2 x3 x4 x5 xs0 xs1 = k0_pay1 (k0_pay7 x1 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S128x1) hz]
  simp only [View.readAt_eq_ld, harg2.read_unread, harg9.read_unread,
    View.ld_unit_zero (S := S10000x1) hz, View.ld_unit_zero (S := S128x1) hz]

/-- At the last point the feature accumulator is updated as at an inner point. -/
theorem sout0_C_0_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : ¬cond0_0 i) (hc1 : cond0_1 i)
    (x0 : Vec F S10000x11 .f32) (x1 : Vec F S10000x1 .i32) (x2 : Vec F S11x64 .f32) (x3 : Vec F S1x64 .f32) (x4 : Vec F S64x19 .f32) (x5 : Vec F S1x19 .f32) (xs0 : Vec F S128x64 .f32) (xs1 : Vec F S128x1 .f32) :
    sout0_C_0 c i arg1 harg1 arg2 harg2 arg3 harg3 arg4 harg4 arg5 harg5 arg6 harg6 arg7 harg7 arg8 harg8 arg9 harg9 hc0 hc1 x0 x1 x2 x3 x4 x5 xs0 xs1 = k0_pay6 x0 x2 x3 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S128x64) hz]
  simp only [View.readAt_eq_ld, harg1.read_unread, harg2.read_unread, harg3.read_unread, harg4.read_unread, harg8.read_unread,
    View.ld_unit_zero (S := S10000x11) hz, View.ld_unit_zero (S := S10000x1) hz, View.ld_unit_zero (S := S11x64) hz,
    View.ld_unit_zero (S := S1x64) hz, View.ld_unit_zero (S := S128x64) hz]

/-- At the last point the count accumulator is updated as at an inner point. -/
theorem sout0_C_1_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : ¬cond0_0 i) (hc1 : cond0_1 i)
    (x0 : Vec F S10000x11 .f32) (x1 : Vec F S10000x1 .i32) (x2 : Vec F S11x64 .f32) (x3 : Vec F S1x64 .f32) (x4 : Vec F S64x19 .f32) (x5 : Vec F S1x19 .f32) (xs0 : Vec F S128x64 .f32) (xs1 : Vec F S128x1 .f32) :
    sout0_C_1 c i arg1 harg1 arg2 harg2 arg3 harg3 arg4 harg4 arg5 harg5 arg6 harg6 arg7 harg7 arg8 harg8 arg9 harg9 hc0 hc1 x0 x1 x2 x3 x4 x5 xs0 xs1 = k0_pay1 (k0_pay7 x1 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S128x1) hz]
  simp only [View.readAt_eq_ld, harg2.read_unread, harg9.read_unread,
    View.ld_unit_zero (S := S10000x1) hz, View.ld_unit_zero (S := S128x1) hz]

/-- At the last point the output block is the head applied to the two accumulators AS JUST UPDATED. -/
theorem out0_C_6_eq (c : Dev nD) (i : grid0.Coords) (arg1 : Memref sig .tc .vmem S10000x11 .f32) (harg1 : arg1.IsWhole) (arg2 : Memref sig .tc .vmem S10000x1 .i32) (harg2 : arg2.IsWhole) (arg3 : Memref sig .tc .vmem S11x64 .f32) (harg3 : arg3.IsWhole) (arg4 : Memref sig .tc .vmem S1x64 .f32) (harg4 : arg4.IsWhole) (arg5 : Memref sig .tc .vmem S64x19 .f32) (harg5 : arg5.IsWhole) (arg6 : Memref sig .tc .vmem S1x19 .f32) (harg6 : arg6.IsWhole) (arg7 : Memref sig .tc .vmem S128x19 .f32) (harg7 : arg7.IsWhole) (arg8 : Memref sig .tc .vmem S128x64 .f32) (harg8 : arg8.IsWhole) (arg9 : Memref sig .tc .vmem S128x1 .f32) (harg9 : arg9.IsWhole) (hc0 : ¬cond0_0 i) (hc1 : cond0_1 i)
    (x0 : Vec F S10000x11 .f32) (x1 : Vec F S10000x1 .i32) (x2 : Vec F S11x64 .f32) (x3 : Vec F S1x64 .f32) (x4 : Vec F S64x19 .f32) (x5 : Vec F S1x19 .f32) (xs0 : Vec F S128x64 .f32) (xs1 : Vec F S128x1 .f32) :
    out0_C_6 c i arg1 harg1 arg2 harg2 arg3 harg3 arg4 harg4 arg5 harg5 arg6 harg6 arg7 harg7 arg8 harg8 arg9 harg9 hc0 hc1 x0 x1 x2 x3 x4 x5 xs0 xs1 = k0_pay2 (k0_pay6 x0 x2 x3 x1 xs0) (k0_pay1 (k0_pay7 x1 xs1)) x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S128x19) hz, View.readCov_unit_zero (S := S128x64) _ hz, View.readCov_unit_zero (S := S128x1) _ hz]
  simp only [View.readAt_eq_ld, harg1.read_unread, harg2.read_unread, harg3.read_unread, harg4.read_unread, harg5.read_unread,
    harg6.read_unread, harg8.read_unread, harg9.read_unread,
    View.ld_unit_zero (S := S10000x11) hz, View.ld_unit_zero (S := S10000x1) hz, View.ld_unit_zero (S := S11x64) hz,
    View.ld_unit_zero (S := S1x64) hz, View.ld_unit_zero (S := S64x19) hz, View.ld_unit_zero (S := S1x19) hz,
    View.ld_unit_zero (S := S128x64) hz, View.ld_unit_zero (S := S128x1) hz]

end Cert.KernelIdeal.Pieces

end
-- ==== Proof.KFold.lean ====
/-
  The kernel's result array, from the per-point facts.

  The two accumulators are reset at the first grid point and every point adds its tile's contribution: the hidden
  features of the tile's nodes per graph (`tileF`), and the tile's node counts per graph (`tileC`). After the
  hundredth point they hold the sums over all nodes, tile by tile, which are the sums over the million nodes
  (`Spec.sum_tiles`): the pooled features `Spec.pool` and the counts `Spec.cnt`. The last point writes the head
  of the two, and that block is the whole output array: the network in the aggregate-then-transform order
  (`Vocab.GF`).
-/
import proofs.«410704_j68461778698659_3_alg».proof.Proof.Gen.KernelIdeal.Value
import proofs.«410704_j68461778698659_3_alg».proof.Proof.KBlocks
import proofs.«410704_j68461778698659_3_alg».proof.Proof.KPay
import proofs.«410704_j68461778698659_3_alg».proof.Proof.KPieces

set_option maxRecDepth 16384

noncomputable section

open scoped BigOperators

namespace Cert.KernelIdeal.KFold

open Cert.KernelIdeal Cert.KernelIdeal.Gen Cert.KernelIdeal.KHost Cert.KernelIdeal.KBlocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The network's data on core `c` -/

abbrev wt (c : Dev nD) : Fin 2000000 → EReal := Cert.Vocab.wtOf (a1 m c)
abbrev src (c : Dev nD) : Fin 2000000 → Fin 1000000 := Cert.Vocab.srcOf (a1 m c)
abbrev tgt (c : Dev nD) : Fin 2000000 → Int := Cert.Vocab.tgtOf (a1 m c)
abbrev seg (c : Dev nD) : Fin 1000000 → Int := Cert.Vocab.segOf (a3 m c)
abbrev xF (c : Dev nD) : Fin 1000000 → Fin 11 → EReal := fun p q => a0 m c (ix2 p q)
abbrev WcF (c : Dev nD) : Fin 11 → Fin 64 → EReal := fun p q => a4 m c (ix2 p q)
abbrev bcF (c : Dev nD) : Fin 64 → EReal := fun p => a5 m c (ix1 p)
abbrev WlF (c : Dev nD) : Fin 64 → Fin 19 → EReal := fun p q => a6 m c (ix2 p q)
abbrev blF (c : Dev nD) : Fin 19 → EReal := fun p => a7 m c (ix1 p)

/-- The hidden features of every node, in the kernel's order: aggregate, then transform. -/
abbrev hidK (c : Dev nD) : Fin 1000000 → Fin 64 → EReal :=
  Cert.Spec.hid (Cert.Spec.mixF (Cert.Spec.aggF (wt m c) (src m c) (tgt m c) (xF m c)) (WcF m c)) (bcF m c)

/-- Tile `n`'s contribution to graph `b`'s feature `j`. -/
def tileF (c : Dev nD) (n : ℕ) (b : Fin 128) (j : Fin 64) : EReal :=
  if h : n < 100 then
    ∑ r : Fin 10000, (fun n' : Fin 1000000 => if seg m c n' = (b.val : Int) then hidK m c n' j else 0) ⟨10000 * n + r.val, by omega⟩
  else 0

/-- Tile `n`'s contribution to graph `b`'s node count. -/
def tileC (c : Dev nD) (n : ℕ) (b : Fin 128) : EReal :=
  if h : n < 100 then
    ∑ r : Fin 10000, (fun n' : Fin 1000000 => if seg m c n' = (b.val : Int) then (1 : EReal) else 0) ⟨10000 * n + r.val, by omega⟩
  else 0

/-! ## One point's update, at an index -/

/-- The feature update of point `n` over any accumulator: the accumulator plus the tile's contribution. -/
theorem updF_apply (c : Dev nD) (n : ℕ) (hn : n < cfg0.N) (acc : Vec Ideal S128x64 .f32) (b : Fin 128) (j : Fin 64) :
    k0_pay6 (F := Ideal) (blk0 m c ⟨n, hn⟩) (blk2 m c ⟨n, hn⟩) (blk3 m c ⟨n, hn⟩) (blk1 m c ⟨n, hn⟩) acc (ix2 b j)
      = acc (ix2 b j) + tileF m c n b j := by
  have h100 : n < 100 := by have := N_eq; omega
  rw [Pay.pay6_apply]
  unfold tileF
  rw [dif_pos h100]
  refine congrArg (acc (ix2 b j) + ·) (Finset.sum_congr rfl fun r _ => ?_)
  have e1 : blk1 m c ⟨n, hn⟩ (ix2 r (0 : Fin 1)) = a3 m c (ix1 ⟨10000 * n + r.val, by omega⟩) :=
    (blk1_apply m c n hn r).trans (segArr_apply m c _)
  have e0 : ∀ f : Fin 11, blk0 m c ⟨n, hn⟩ (ix2 r f)
      = Cert.Spec.aggF (wt m c) (src m c) (tgt m c) (xF m c) ⟨10000 * n + r.val, by omega⟩ f :=
    fun f => (blk0_apply m c n hn r f).trans (aggArr_apply m c _ f)
  have e2 : ∀ f : Fin 11, blk2 m c ⟨n, hn⟩ (ix2 f j) = a4 m c (ix2 f j) := fun f => by
    rw [blk2_eq, wcArr_eq]
  have e3 : blk3 m c ⟨n, hn⟩ (ix2 (0 : Fin 1) j) = a5 m c (ix1 j) := by
    rw [blk3_eq]; exact bcArr_apply m c j
  rw [e1, e3]
  simp only [e0, e2]
  rfl

/-- The count update of point `n` over any accumulator. -/
theorem updC_apply (c : Dev nD) (n : ℕ) (hn : n < cfg0.N) (acc : Vec Ideal S128x1 .f32) (b : Fin 128) :
    k0_pay1 (F := Ideal) (k0_pay7 (blk1 m c ⟨n, hn⟩) acc) (ix2 b (0 : Fin 1))
      = acc (ix2 b (0 : Fin 1)) + tileC m c n b := by
  have h100 : n < 100 := by have := N_eq; omega
  rw [Pay.pay1_eq, Pay.pay7_apply]
  unfold tileC
  rw [dif_pos h100]
  refine congrArg (acc (ix2 b (0 : Fin 1)) + ·) (Finset.sum_congr rfl fun r _ => ?_)
  have e1 : blk1 m c ⟨n, hn⟩ (ix2 r (0 : Fin 1)) = a3 m c (ix1 ⟨10000 * n + r.val, by omega⟩) :=
    (blk1_apply m c n hn r).trans (segArr_apply m c _)
  rw [e1]
  rfl

/-! ## What a point leaves in the accumulators, as the update -/

/-- The first point leaves the update of the zero array in the feature accumulator. -/
theorem scF_first (c : Dev nD) (h : 0 < cfg0.N) (acc : Vec Ideal S128x64 .f32) :
    Cert.KernelIdeal.Value.scAt0_0 m c 0 h acc
      = k0_pay6 (F := Ideal) (blk0 m c ⟨0, h⟩) (blk2 m c ⟨0, h⟩) (blk3 m c ⟨0, h⟩) (blk1 m c ⟨0, h⟩) (k0_pay3 (F := Ideal)) := by
  unfold Cert.KernelIdeal.Value.scAt0_0
  rw [dif_pos (Nat.zero_mod 100), dif_neg (by norm_num)]
  exact Cert.KernelIdeal.Pieces.sout0_A_0_eq _ _ _ _ _ _ _ _ _ _ _ _ _ _ _ _ _ _ _ _ _ _ _ _ _ _ _ _

/-- A later point leaves the update of what the point before left. -/
theorem scF_next (c : Dev nD) (n : ℕ) (h : n < cfg0.N) (hn : 0 < n) (acc : Vec Ideal S128x64 .f32) :
    Cert.KernelIdeal.Value.scAt0_0 m c n h acc
      = k0_pay6 (F := Ideal) (blk0 m c ⟨n, h⟩) (blk2 m c ⟨n, h⟩) (blk3 m c ⟨n, h⟩) (blk1 m c ⟨n, h⟩) acc := by
  have h100 : n < 100 := by have := N_eq; omega
  unfold Cert.KernelIdeal.Value.scAt0_0
  rw [dif_neg (by omega)]
  split
  · exact Cert.KernelIdeal.Pieces.sout0_C_0_eq _ _ _ _ _ _ _ _ _ _ _ _ _ _ _ _ _ _ _ _ _ _ _ _ _ _ _ _ _ _
  · exact Cert.KernelIdeal.Pieces.sout0_B_0_eq _ _ _ _ _ _ _ _ _ _ _ _ _ _ _ _ _ _ _ _ _ _ _ _ _ _ _ _ _ _

/-- The same for the count accumulator. -/
theorem scC_first (c : Dev nD) (h : 0 < cfg0.N) (acc : Vec Ideal S128x1 .f32) :
    Cert.KernelIdeal.Value.scAt0_1 m c 0 h acc
      = k0_pay1 (F := Ideal) (k0_pay7 (blk1 m c ⟨0, h⟩) (k0_pay4 (F := Ideal))) := by
  unfold Cert.KernelIdeal.Value.scAt0_1
  rw [dif_pos (Nat.zero_mod 100), dif_neg (by norm_num)]
  exact Cert.KernelIdeal.Pieces.sout0_A_1_eq _ _ _ _ _ _ _ _ _ _ _ _ _ _ _ _ _ _ _ _ _ _ _ _ _ _ _ _

theorem scC_next (c : Dev nD) (n : ℕ) (h : n < cfg0.N) (hn : 0 < n) (acc : Vec Ideal S128x1 .f32) :
    Cert.KernelIdeal.Value.scAt0_1 m c n h acc
      = k0_pay1 (F := Ideal) (k0_pay7 (blk1 m c ⟨n, h⟩) acc) := by
  have h100 : n < 100 := by have := N_eq; omega
  unfold Cert.KernelIdeal.Value.scAt0_1
  rw [dif_neg (by omega)]
  split
  · exact Cert.KernelIdeal.Pieces.sout0_C_1_eq _ _ _ _ _ _ _ _ _ _ _ _ _ _ _ _ _ _ _ _ _ _ _ _ _ _ _ _ _ _
  · exact Cert.KernelIdeal.Pieces.sout0_B_1_eq _ _ _ _ _ _ _ _ _ _ _ _ _ _ _ _ _ _ _ _ _ _ _ _ _ _ _ _ _ _

/-! ## The accumulators after a point: the sum of the tiles so far -/

/-- After point `n` the feature accumulator holds the contributions of tiles `0 … n`. -/
theorem scrF_apply (c : Dev nD) (n : ℕ) (hn : n < cfg0.N) (b : Fin 128) (j : Fin 64) :
    (outsAt0 m c n hn).2.1 (ix2 b j) = 0 + ∑ s ∈ Finset.range (n + 1), tileF m c s b j := by
  have h100 : n < 100 := by have := N_eq; omega
  rw [Cert.KernelIdeal.Value.soutsAt0_0_sweep m c n hn]
  have key := Pipeline.accAt_add_apply (N := cfg0.N) (ι := S128x64.Idx) (β := EReal)
    (fun n h => Cert.KernelIdeal.Value.scAt0_0 m c n h (VS0_0.read (Elt Ideal) VS0_0.junk))
    (Cert.KernelIdeal.Value.scAt0_0 m c) (fun _ => 0)
    (fun s i => tileF m c s ⟨(i 0).val, (i 0).isLt⟩ ⟨(i 1).val, (i 1).isLt⟩) 0 99
    (fun h i => by
      obtain ⟨b', j', rfl⟩ : ∃ (b' : Fin 128) (j' : Fin 64), i = ix2 b' j' := ⟨i 0, i 1, eq_ix2 i⟩
      rw [scF_first m c h, updF_apply m c 0 h, Pay.pay3_apply])
    (fun n h acc i h0 hle => by
      obtain ⟨b', j', rfl⟩ : ∃ (b' : Fin 128) (j' : Fin 64), i = ix2 b' j' := ⟨i 0, i 1, eq_ix2 i⟩
      rw [scF_next m c n h h0, updF_apply m c n h])
    n (by omega) (by omega) (ix2 b j)
  rw [key]
  simp only [Nat.zero_add]

/-- After point `n` the count accumulator holds the counts of tiles `0 … n`. -/
theorem scrC_apply (c : Dev nD) (n : ℕ) (hn : n < cfg0.N) (b : Fin 128) :
    (outsAt0 m c n hn).2.2 (ix2 b (0 : Fin 1)) = 0 + ∑ s ∈ Finset.range (n + 1), tileC m c s b := by
  have h100 : n < 100 := by have := N_eq; omega
  rw [Cert.KernelIdeal.Value.soutsAt0_1_sweep m c n hn]
  have key := Pipeline.accAt_add_apply (N := cfg0.N) (ι := S128x1.Idx) (β := EReal)
    (fun n h => Cert.KernelIdeal.Value.scAt0_1 m c n h (VS0_1.read (Elt Ideal) VS0_1.junk))
    (Cert.KernelIdeal.Value.scAt0_1 m c) (fun _ => 0)
    (fun s i => tileC m c s ⟨(i 0).val, (i 0).isLt⟩) 0 99
    (fun h i => by
      obtain ⟨b', z, rfl⟩ : ∃ (b' : Fin 128) (z : Fin 1), i = ix2 b' z := ⟨i 0, i 1, eq_ix2 i⟩
      obtain rfl : z = 0 := Subsingleton.elim _ _
      rw [scC_first m c h, updC_apply m c 0 h, Pay.pay4_apply])
    (fun n h acc i h0 hle => by
      obtain ⟨b', z, rfl⟩ : ∃ (b' : Fin 128) (z : Fin 1), i = ix2 b' z := ⟨i 0, i 1, eq_ix2 i⟩
      obtain rfl : z = 0 := Subsingleton.elim _ _
      rw [scC_next m c n h h0, updC_apply m c n h])
    n (by omega) (by omega) (ix2 b (0 : Fin 1))
  rw [key]
  simp only [Nat.zero_add]

/-- All hundred tiles: the pooled features. -/
theorem pool_eq (c : Dev nD) (b : Fin 128) (j : Fin 64) :
    0 + ∑ s ∈ Finset.range 100, tileF m c s b j = Cert.Spec.pool (hidK m c) (seg m c) b j := by
  unfold Cert.Spec.pool
  rw [Cert.Spec.sum_tiles]
  rfl

/-- All hundred tiles: the node counts. -/
theorem cnt_eq (c : Dev nD) (b : Fin 128) :
    0 + ∑ s ∈ Finset.range 100, tileC m c s b = Cert.Spec.cnt (seg m c) b := by
  unfold Cert.Spec.cnt
  rw [Cert.Spec.sum_tiles]
  rfl

/-! ## The last point's write-back, and the output array -/

/-- The network's array on core `c`, in the kernel's order. -/
abbrev GFk (c : Dev nD) : Vec Ideal S128x19 .f32 :=
  Cert.Vocab.GF (a0 m c) (a1 m c) (a3 m c) (a4 m c) (a5 m c) (a6 m c) (a7 m c)

/-- … at an index: the head of the pooled features and the counts. -/
theorem GFk_apply (c : Dev nD) (b : Fin 128) (k : Fin 19) :
    GFk m c (ix2 b k)
      = (∑ j : Fin 64, Ideal.div (Cert.Spec.pool (hidK m c) (seg m c) b j) (max (Cert.Spec.cnt (seg m c) b) 1) * a6 m c (ix2 j k))
        + a7 m c (ix1 k) := rfl

/-- Window 6's one block sits at the origin at every point. -/
theorem idx6 : ∀ t : Fin cfg0.N, win0_6.index t (0 : Fin 2) = 0 ∧ win0_6.index t (1 : Fin 2) = 0 :=
  (by decide +kernel : ∀ t : Fin grid0.N, _)

/-- The output's block is the whole array: a block's contents written back are the array they equal. -/
theorem cut_read_whole (X G : Vec Ideal S128x19 .f32) (t : Fin cfg0.N) (h : X = G) :
    (cfg0.win 6).cut (grid0.coords t) X = ((cfg0.win 6).blk t).view.read (Elt Ideal) G := by
  subst h
  funext y
  rw [View.read_apply]
  obtain ⟨e0, e1⟩ := idx6 t
  have hi : ((cfg0.win 6).blk t).view.emb y = (cfg0.win 6).xinj (grid0.coords t) y := by
    funext a; apply Fin.ext
    match a with
    | ⟨0, _⟩ => show win0_6.index t (0 : Fin 2) * 128 + 1 * (y 0).val = (y 0).val; omega
    | ⟨1, _⟩ => show win0_6.index t (1 : Fin 2) * 19 + 1 * (y 1).val = (y 1).val; omega
  rw [hi]
  exact (cast_eq _ _).symm

/-- What the last point writes back is the network's array. -/
theorem flushed_eq (c : Dev nD) (t : Fin cfg0.N) (hf : (cfg0.win 6).flush t = true) :
    (dats m 0 c).flushed 6 t = ((cfg0.win 6).blk t).view.read (Elt Ideal) (GFk m c) := by
  have h1 : t.val % 100 = 99 := (flush0_6 t).mp hf
  have hN := N_eq
  obtain ⟨n, hn⟩ := t
  obtain rfl : n = 99 := by dsimp only at h1; omega
  have h0 : ¬ (99 : ℕ) % 100 = 0 := by norm_num
  rw [Cert.KernelIdeal.Value.flushed6_C m c ⟨99, hn⟩ h0 h1, Cert.KernelIdeal.Pieces.out0_C_6_eq]
  refine cut_read_whole _ _ ⟨99, hn⟩ ?_
  funext i
  obtain ⟨b, k, rfl⟩ : ∃ (b : Fin 128) (k : Fin 19), i = ix2 b k := ⟨i 0, i 1, eq_ix2 i⟩
  rw [Pay.pay2_apply, GFk_apply]
  have hS : ∀ j : Fin 64, k0_pay6 (F := Ideal) (blk0 m c ⟨99, hn⟩) (blk2 m c ⟨99, hn⟩) (blk3 m c ⟨99, hn⟩) (blk1 m c ⟨99, hn⟩)
      (outsAt0 m c (99 - 1) (Nat.lt_of_le_of_lt (Nat.sub_le _ _) hn)).2.1 (ix2 b j)
        = Cert.Spec.pool (hidK m c) (seg m c) b j := fun j => by
    rw [updF_apply m c 99 hn, scrF_apply m c (99 - 1) _ b j, ← pool_eq m c b j, add_assoc]
    exact congrArg (0 + ·) (Finset.sum_range_succ (fun s => tileF m c s b j) 99).symm
  have hC : k0_pay1 (F := Ideal) (k0_pay7 (blk1 m c ⟨99, hn⟩)
      (outsAt0 m c (99 - 1) (Nat.lt_of_le_of_lt (Nat.sub_le _ _) hn)).2.2) (ix2 b (0 : Fin 1))
        = Cert.Spec.cnt (seg m c) b := by
    rw [updC_apply m c 99 hn, scrC_apply m c (99 - 1) _ b, ← cnt_eq m c b, add_assoc]
    exact congrArg (0 + ·) (Finset.sum_range_succ (fun s => tileC m c s b) 99).symm
  have e4 : ∀ j : Fin 64, blk4 m c ⟨99, hn⟩ (ix2 j k) = a6 m c (ix2 j k) := fun j => by
    rw [blk4_eq, wlArr_eq]
  have e5 : blk5 m c ⟨99, hn⟩ (ix2 (0 : Fin 1) k) = a7 m c (ix1 k) := by
    rw [blk5_eq]; exact blArr_apply m c k
  exact congrArg₂ (· + ·) (Finset.sum_congr rfl fun j _ => by
    rw [hS j, hC]
    show _ * blk4 m c ⟨99, hn⟩ (ix2 j k) = _
    rw [e4 j]) e5

/-- An index of the output array is in a point's block iff each coordinate is in the block's range on its axis. -/
theorem mem_blk6 (t : Fin cfg0.N) (i : S128x19.Idx) :
    i ∈ ((cfg0.win 6).blk t).view.set ↔ ∀ a : Fin 2, win0_6.index t a * S128x19.size a ≤ (i a).val
      ∧ (i a).val < win0_6.index t a * S128x19.size a + S128x19.size a := by
  show i ∈ ((View.whole main_v45).slice (win0_6.rect t)).set ↔ _
  rw [View.set_slice_whole, Rect.mem_set_unit]
  exact Iff.rfl

/-- The one flushing point's block is the whole output array. -/
theorem cover6 (i : S128x19.Idx) :
    ∃ t : Fin cfg0.N, (cfg0.win 6).flush t = true ∧ i ∈ ((cfg0.win 6).blk t).view.set := by
  have ht : 99 < cfg0.N := by rw [N_eq]; norm_num
  refine ⟨⟨99, ht⟩, (flush0_6 ⟨99, ht⟩).mpr (by norm_num), (mem_blk6 ⟨99, ht⟩ i).mpr fun a => ?_⟩
  obtain ⟨e0, e1⟩ := idx6 ⟨99, ht⟩
  match a with
  | ⟨0, _⟩ =>
    show win0_6.index ⟨99, ht⟩ (0 : Fin 2) * 128 ≤ (i 0).val ∧ (i 0).val < win0_6.index ⟨99, ht⟩ (0 : Fin 2) * 128 + 128
    have hi0 : (i 0).val < 128 := (i 0).isLt
    omega
  | ⟨1, _⟩ =>
    show win0_6.index ⟨99, ht⟩ (1 : Fin 2) * 19 ≤ (i 1).val ∧ (i 1).val < win0_6.index ⟨99, ht⟩ (1 : Fin 2) * 19 + 19
    have hi1 : (i 1).val < 19 := (i 1).isLt
    omega

/-- THE OUTPUT ARRAY after the region: the network, aggregate-then-transform. -/
theorem final (c : Dev nD) : (dats m 0 c).arrAt 6 cfg0.N = GFk m c :=
  (dats m 0 c).arrAt_eq_of_cover 6 (GFk m c) (fun t hf => flushed_eq m c t hf) (cover6)

end Cert.KernelIdeal.KFold

end
-- ==== Proof.KFinal.lean ====
/-
  The kernel program's run with its result array named: the network in the aggregate-then-transform order.
-/
import proofs.«410704_j68461778698659_3_alg».proof.Proof.Gen.KernelIdeal.Value
import proofs.«410704_j68461778698659_3_alg».proof.Proof.KHost
import proofs.«410704_j68461778698659_3_alg».proof.Proof.KFold

noncomputable section

namespace Cert.KernelIdeal.KFinal

open Cert.KernelIdeal Cert.KernelIdeal.Gen Cert.KernelIdeal.KHost
open Idealize.ShloMosaic Idealize.ShloMosaic.TcCoe Idealize.SL.Sem

variable (m : (ℓ : Loc nD τ sig) → Buf (Elt Ideal) ℓ) (ρ : Dev nD → PrngReg)

/-- After the region the output array holds the network of the arguments as launched. -/
theorem kernel_final (c : Dev nD) :
    (dats m 0 c).arrAt 6 cfg0.N
      = Cert.Vocab.GF (a0 m c) (a1 m c) (a3 m c) (a4 m c) (a5 m c) (a6 m c) (a7 m c) :=
  Cert.KernelIdeal.KFold.final m c

/-- The kernel program's run: every weakly fair execution ends with the result at that array, the arguments unchanged. -/
theorem run : θ_run defs (onTc (τ := τ) (main (F := Ideal))) ⟨m, fun _ => 0, ρ⟩ fun r => ∀ c : Dev nD,
      r.2.mem ((c : Thread nD τ).loc main_v45)
        = Cert.Vocab.GF (a0 m c) (a1 m c) (a3 m c) (a4 m c) (a5 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (kernel_final m c), (h c).2⟩)
    (Cert.KernelIdeal.Value.run_blocks m ρ)

end Cert.KernelIdeal.KFinal

end
-- ==== Proof.FinitePre.lean ====
/-
  What the precondition gives: every entry of the node features and of the first weight matrix is a real number.
  The precondition is the conjunction, over the float arguments, of "every entry's absolute value is below +∞".
-/
import proofs.«410704_j68461778698659_3_alg».proof.Pre_finite_inputs
import Idealize.ShloMosaic.PureOps.Ideal
import Idealize.ShloMosaic.Lib.ValueIdx
import Idealize.ShloMosaic.Lib.ReduceAll

noncomputable section

namespace Cert.FinitePre

open Idealize.ShloMosaic Idealize.ShloMosaic.ValueIdx
open Cert.Pre_finite_inputs (S1000000x11 S2x2000000 S128x19 S1000000 S11x64 S64 S64x19 S19)

/-- The shape of rank zero has one index. -/
instance : Subsingleton Cert.Pre_finite_inputs.S_.Idx := ⟨fun a b => funext fun d => d.elim0⟩

/-- The word with all exponent bits set, sign clear and fraction zero denotes +∞. -/
theorem top_f32 : Ideal.ofBits .f32 0x7F800000#32 = (⊤ : EReal) := by
  simp [Ideal.ofBits, Ideal.ieee]

/-- An extended real whose absolute value max x (-x) lies strictly below +∞ is a real number:
    at -∞ the absolute value is +∞, at +∞ likewise, and neither is below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

variable [hP : Cert.Pre_finite_inputs.Facts]

/-- Under the precondition the node features are real numbers. -/
theorem x_real (a0 : FVec Ideal S1000000x11 .f32) (a1 : IVec S2x2000000 32) (a2 : FVec Ideal S128x19 .f32)
    (a3 : IVec S1000000 32) (a4 : FVec Ideal S11x64 .f32) (a5 : FVec Ideal S64 .f32) (a6 : FVec Ideal S64x19 .f32)
    (a7 : FVec Ideal S19 .f32)
    (h : Cert.Pre_finite_inputs.fn (F := Ideal) a0 a1 a2 a3 a4 a5 a6 a7 = fun _ => 1#1) :
    ∀ i, ∃ r : ℝ, a0 i = (r : EReal) := by
  intro i
  have h0 := congrFun h ValueIdx.ix0
  unfold Cert.Pre_finite_inputs.fn Cert.Pre_finite_inputs.fn_part1 at h0
  dsimp only [andi] at h0
  have hall := (IntOp.andi_eq_one.1 (IntOp.andi_eq_one.1 (IntOp.andi_eq_one.1 (IntOp.andi_eq_one.1 (IntOp.andi_eq_one.1 h0).1).1).1).1).1
  have hi := Host.reduce_andi_all _ _ _ _ _ hall i
  exact real_of_abs_lt_top (a0 i) (by
    have e : Ideal.cmp .olt (max (a0 i) (-(a0 i))) (Ideal.ofBits .f32 0x7F800000#32) = 1#1 := hi
    rwa [top_f32] at e)

/-- Under the precondition the first weight matrix's entries are real numbers. -/
theorem W_real (a0 : FVec Ideal S1000000x11 .f32) (a1 : IVec S2x2000000 32) (a2 : FVec Ideal S128x19 .f32)
    (a3 : IVec S1000000 32) (a4 : FVec Ideal S11x64 .f32) (a5 : FVec Ideal S64 .f32) (a6 : FVec Ideal S64x19 .f32)
    (a7 : FVec Ideal S19 .f32)
    (h : Cert.Pre_finite_inputs.fn (F := Ideal) a0 a1 a2 a3 a4 a5 a6 a7 = fun _ => 1#1) :
    ∀ i, ∃ r : ℝ, a4 i = (r : EReal) := by
  intro i
  have h0 := congrFun h ValueIdx.ix0
  unfold Cert.Pre_finite_inputs.fn Cert.Pre_finite_inputs.fn_part1 at h0
  dsimp only [andi] at h0
  have hall := (IntOp.andi_eq_one.1 (IntOp.andi_eq_one.1 (IntOp.andi_eq_one.1 (IntOp.andi_eq_one.1 h0).1).1).1).2
  have hi := Host.reduce_andi_all _ _ _ _ _ hall i
  exact real_of_abs_lt_top (a4 i) (by
    have e : Ideal.cmp .olt (max (a4 i) (-(a4 i))) (Ideal.ofBits .f32 0x7F800000#32) = 1#1 := hi
    rwa [top_f32] at e)

end Cert.FinitePre

end
-- ==== Proof.FiniteWt.lean ====
/-
  Every edge weight is a real number, whatever the edge list holds.

  The weight is the product of two entries of one table, each read at a clamped position; a table entry is either
  zero or the inverse square root of the larger of an in-degree and one — of an extended real that is at least one,
  whose inverse square root is a real number (zero at +∞).
-/
import proofs.«410704_j68461778698659_3_alg».proof.Proof.Vocab
import Idealize.ShloMosaic.Lib.StableHlo.Predicate
import Idealize.ShloMosaic.Lib.IdealHost

noncomputable section

namespace Cert.FiniteWt

open Idealize.ShloMosaic Idealize.ShloMosaic.ValueIdx
open Cert.ReferenceIdeal (S2x2000000 S1000000)
open Cert.ReferenceIdeal.ReadP

/-- The inverse square root of an extended real that is at least one is a real number: the larger of d and one is
    +∞, whose inverse square root is zero, or a real at least one, whose inverse square root is the real (√·)⁻¹. -/
theorem rsqrt_max_one_real (d : EReal) : ∃ r : ℝ, Ideal.rsqrt (max d 1) = (r : EReal) := by
  induction d using EReal.rec with
  | bot =>
    refine ⟨(Real.sqrt 1)⁻¹, ?_⟩
    rw [max_eq_right bot_le, show (1 : EReal) = ((1 : ℝ) : EReal) from rfl, Ideal.rsqrt_coe,
      if_neg (by norm_num), if_neg (by norm_num)]
  | coe r =>
    refine ⟨(Real.sqrt (max r 1))⁻¹, ?_⟩
    have h1 : (1 : ℝ) ≤ max r 1 := le_max_right _ _
    have hm : max (r : EReal) ((1 : ℝ) : EReal) = ((max r 1 : ℝ) : EReal) :=
      (EReal.coe_strictMono.monotone.map_max).symm
    rw [show (1 : EReal) = ((1 : ℝ) : EReal) from rfl, hm, Ideal.rsqrt_coe,
      if_neg (by linarith), if_neg (by linarith)]
  | top =>
    refine ⟨0, ?_⟩
    rw [max_eq_left le_top, Ideal.rsqrt_top, EReal.coe_zero]

/-- Every entry of the table of inverse square roots is a real number: zero where the in-degree is not positive,
    the inverse square root of the larger of the in-degree and one elsewhere. -/
theorem table_real (x1 : (⟨S2x2000000, .i32⟩ : BufTy).Contents (Elt Ideal)) (i : S1000000.Idx) :
    ∃ r : ℝ, val_main_v13 (F := Ideal) x1 i = (r : EReal) := by
  rw [val_main_v13_apply]
  by_cases hc : val_main_v9 (F := Ideal) x1 i = 1#1
  · rw [hc, select_one, val_main_v12_apply, val_main_v11_apply, val_main_v10_apply, val_main_cst_2_apply,
      Ideal.hostUnary_rsqrt_def, Ideal.maximumf_def]
    show ∃ r : ℝ, Ideal.rsqrt (max _ (Ideal.ofBits .f32 0x3F800000#32)) = (r : EReal)
    rw [Ideal.ofBits_one_f32]
    exact rsqrt_max_one_real _
  · rw [eq_zero_of_ne_one hc, select_zero, val_main_call0_v1_apply, val_main_call0_v0_apply, val_main_cst_3_apply]
    show ∃ r : ℝ, Ideal.ofBits .f32 0x00000000#32 = (r : EReal)
    rw [Ideal.ofBits_zero_f32]
    exact ⟨0, EReal.coe_zero.symm⟩

/-- Every edge weight is a real number. -/
theorem wt_real (x1 : (⟨S2x2000000, .i32⟩ : BufTy).Contents (Elt Ideal)) (e : Fin 2000000) :
    ∃ r : ℝ, Cert.Vocab.wtOf x1 e = (r : EReal) := by
  unfold Cert.Vocab.wtOf
  rw [val_main_v28_apply, Ideal.mulf_def]
  -- each factor is a take of the table: it is the table's entry at some position
  obtain ⟨a, ha⟩ := table_real x1
    (Cert.ReferenceIdeal.gather_S1000000_S2000000x1_S2000000_n_0_n_n_0_1_1.operandIdx (ix1 e) (val_main_v19 (F := Ideal) x1))
  obtain ⟨b, hb⟩ := table_real x1
    (Cert.ReferenceIdeal.gather_S1000000_S2000000x1_S2000000_n_0_n_n_0_1_1.operandIdx (ix1 e) (val_main_v26 (F := Ideal) x1))
  refine ⟨a * b, ?_⟩
  rw [EReal.coe_mul, ← ha, ← hb]
  rfl

end Cert.FiniteWt

end
-- ==== Proof.Claims.lean ====
/-
  The five claims of the certificate, assembled.

  The two kernel programs' frames are their frame runs; the reference's frame is its run with the result
  dropped. The idealization rewrote no operation. At the ideal instance both programs end at the network
  `Vocab.G` of the arguments: the kernel program's run ends at the aggregate-then-transform order `Vocab.GF`,
  which on real node features, a real first weight matrix (the precondition) and real edge weights (always) is
  `Vocab.G`; the reference's last stage is `Vocab.G` of its own arguments, which agree with the kernel's.
-/
import proofs.«410704_j68461778698659_3_alg».proof.Defs
import proofs.«410704_j68461778698659_3_alg».proof.Proof.Gen.Kernel.Frame
import proofs.«410704_j68461778698659_3_alg».proof.Proof.Gen.KernelIdeal.Frame
import proofs.«410704_j68461778698659_3_alg».proof.Proof.Gen.Pre_finite_inputs
import proofs.«410704_j68461778698659_3_alg».proof.Proof.RefRead
import proofs.«410704_j68461778698659_3_alg».proof.Proof.RefValue
import proofs.«410704_j68461778698659_3_alg».proof.Proof.KFinal
import proofs.«410704_j68461778698659_3_alg».proof.Proof.FinitePre
import proofs.«410704_j68461778698659_3_alg».proof.Proof.FiniteWt

noncomputable section

open Idealize.ShloMosaic Idealize.ShloMosaic.TcCoe Idealize.SL.Sem

namespace Cert.Proof.Claims

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal instance, from memories agreeing on the arguments, both programs end at the network `Vocab.G` of the
    kernel's arguments. -/
theorem algebraic : Cert.algebraic_KernelIdeal_ReferenceIdeal := by
  intro m ρ m' ρ' hpre hagree
  refine ⟨fun c => Cert.Vocab.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel side: aggregate-then-transform is transform-then-aggregate on real features, matrix and weights
    exact (θ_run Cert.KernelIdeal.defs _ _).mono (fun r h c => ⟨(h c).1.trans (Cert.Vocab.GF_eq_G _ _ _ _ _ _ _
        (Cert.FinitePre.x_real _ _ _ _ _ _ _ _ (hpre c)) (Cert.FinitePre.W_real _ _ _ _ _ _ _ _ (hpre c))
        (Cert.FiniteWt.wt_real _)), (h c).2⟩) (Cert.KernelIdeal.KFinal.run m ρ)
  · -- the reference side: its last stage is the network of its own arguments, which are the kernel's
    refine (θ_run Cert.ReferenceIdeal.defs _ _).mono (fun _ h c => ⟨?_, (h c).2⟩) (Cert.ReferenceIdeal.ValueP.run (F := Ideal) m' ρ')
    rw [(h c).1, Cert.ReferenceIdeal.ReadP.val_main_v62_eq, Cert.RefValue.ref_eq, (hagree c).1, (hagree c).2.1,
      (hagree c).2.2.2.1, (hagree c).2.2.2.2.1, (hagree c).2.2.2.2.2.1, (hagree c).2.2.2.2.2.2.1,
      (hagree c).2.2.2.2.2.2.2]

end Cert.Proof.Claims

end
-- ==== Proof.lean ====
/-
  A graph-convolution layer, mean pooling per graph and a linear head: kernel against reference, over the
  extended reals.

  Both programs weight every edge by the symmetric degree normalisation (the same host operations on the edge
  list). The reference transforms each node's 11 features by the 11 × 64 matrix and then sums the weighted
  transformed rows along the edges into the target nodes; the kernel program sums the weighted 11-wide rows first
  and applies the matrix afterwards, inside its one region, tile by tile of 10,000 nodes. The two agree because
  the matrix product distributes over the edge sum — on the extended reals only where features, matrix and
  weights are real numbers: the features and the matrix by the precondition, the weights always (an inverse
  square root of a number at least one, or zero). After the bias and the rectifier the reference sums the hidden
  rows per graph by a scatter-add over the graph numbers and counts the nodes per graph the same way; the kernel
  multiplies by the 0/1 membership matrix of each tile and accumulates over the hundred tiles in two carried
  accumulators, which after the last tile hold the same sums (a sum over the nodes is the sum over the tiles);
  a node whose graph number is outside 0 … 127 is dropped by both. The head — mean with the count floored at one,
  the 64 × 19 matrix, the bias — is the same expression on both sides.

  Spec.lean has the network as mathematics and Linear.lean the two algebraic facts; Vocab.lean names the data both
  programs share; RefRun / RefRead are the reference's run and its stages, RefValue reads them as the network;
  KHost, KBlocks, KPay, KPieces, KFold and KFinal read the kernel program; FinitePre and FiniteWt give the real
  numbers; Claims.lean assembles the five claims.
-/
import proofs.«410704_j68461778698659_3_alg».proof.Defs
import proofs.«410704_j68461778698659_3_alg».proof.Proof.Gen.Kernel
import proofs.«410704_j68461778698659_3_alg».proof.Proof.Gen.Kernel.Skeleton
import proofs.«410704_j68461778698659_3_alg».proof.Proof.Gen.Kernel.Launch
import proofs.«410704_j68461778698659_3_alg».proof.Proof.Gen.Kernel.Points
import proofs.«410704_j68461778698659_3_alg».proof.Proof.Gen.Kernel.Frame
import proofs.«410704_j68461778698659_3_alg».proof.Proof.Gen.KernelIdeal
import proofs.«410704_j68461778698659_3_alg».proof.Proof.Gen.KernelIdeal.Skeleton
import proofs.«410704_j68461778698659_3_alg».proof.Proof.Gen.KernelIdeal.Launch
import proofs.«410704_j68461778698659_3_alg».proof.Proof.Gen.KernelIdeal.Points
import proofs.«410704_j68461778698659_3_alg».proof.Proof.Gen.KernelIdeal.Frame
import proofs.«410704_j68461778698659_3_alg».proof.Proof.Gen.ReferenceIdeal
import proofs.«410704_j68461778698659_3_alg».proof.Proof.Gen.Pre_finite_inputs
import proofs.«410704_j68461778698659_3_alg».proof.Proof.Gen.KernelIdeal.Value
import proofs.«410704_j68461778698659_3_alg».proof.Proof.RefRun
import proofs.«410704_j68461778698659_3_alg».proof.Proof.RefRead
import proofs.«410704_j68461778698659_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
